-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x256 : Shape := ⟨3, ![8, 256, 256]⟩
abbrev S8x64x256 : Shape := ⟨3, ![8, 64, 256]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S_ : Shape := ⟨0, ![]⟩

class Facts : Prop where
  bcast_S_S8x256x256 : S_.BroadcastsInDim S8x256x256 (![] : Fin 0 → Fin S8x256x256.rank)
  reducesTo_S8x256x256_S_d0_1_2 : S8x256x256.ReducesTo [0, 1, 2] S_
  h_S_ : 0 < S_.numel
  bcast_S_S8x64x256 : S_.BroadcastsInDim S8x64x256 (![] : Fin 0 → Fin S8x64x256.rank)
  reducesTo_S8x64x256_S_d0_1_2 : S8x64x256.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x512 .f32) (main_arg5 : FVec F S1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x256x256 .f32) (main_arg1 : FVec F S8x64x256 .f32) (main_arg2 : FVec F S512x512 .f32) (main_arg3 : FVec F S512 .f32) (main_arg4 : FVec F S1024x512 .f32) (main_arg5 : FVec F S1024 .f32) : IVec S_ 1 :=
  let main_v0 : FVec F S8x256x256 .f32 := Host.absf main_arg0
  let main_cst : FVec F S_ .f32 := constant S_ .f32 0x7F800000#32
  let main_v1 : FVec F S8x256x256 .f32 := broadcastInDim S8x256x256 ![] bcast_S_S8x256x256 main_cst
  let main_v2 : IVec S8x256x256 1 := cmpf .olt main_v0 main_v1
  let main_c : IVec S_ 1 := constantI S_ 1 1#1
  let main_v3 : IVec S_ 1 := (fun x v => Host.reduce IntOp.andi x v reducesTo_S8x256x256_S_d0_1_2 h_S_) main_v2 main_c
  let main_v4 : FVec F S8x64x256 .f32 := Host.absf main_arg1
  let main_cst_0 : FVec F S_ .f32 := constant S_ .f32 0x7F800000#32
  let main_v5 : FVec F S8x64x256 .f32 := broadcastInDim S8x64x256 ![] bcast_S_S8x64x256 main_cst_0
  let main_v6 : IVec S8x64x256 1 := cmpf .olt main_v4 main_v5
  let main_c_1 : IVec S_ 1 := constantI S_ 1 1#1
  let main_v7 : IVec S_ 1 := (fun x v => Host.reduce IntOp.andi x v reducesTo_S8x64x256_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S8x256x256 : Shape := ⟨3, ![8, 256, 256]⟩
abbrev S8x64x256 : Shape := ⟨3, ![8, 64, 256]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S512x256 : Shape := ⟨2, ![512, 256]⟩
abbrev S1x512 : Shape := ⟨2, ![1, 512]⟩
abbrev S1x1024 : Shape := ⟨2, ![1, 1024]⟩
abbrev S8x256x64x1024 : Shape := ⟨4, ![8, 256, 64, 1024]⟩
abbrev S1x16x256 : Shape := ⟨3, ![1, 16, 256]⟩
abbrev S1x64x256 : Shape := ⟨3, ![1, 64, 256]⟩
abbrev S1x16x64x1024 : Shape := ⟨4, ![1, 16, 64, 1024]⟩
abbrev S16x256 : Shape := ⟨2, ![16, 256]⟩
abbrev S64x256 : Shape := ⟨2, ![64, 256]⟩
abbrev S256x512 : Shape := ⟨2, ![256, 512]⟩
abbrev S16x512 : Shape := ⟨2, ![16, 512]⟩
abbrev S64x512 : Shape := ⟨2, ![64, 512]⟩
abbrev S16x1x512 : Shape := ⟨3, ![16, 1, 512]⟩
abbrev S1x64x512 : Shape := ⟨3, ![1, 64, 512]⟩
abbrev S16x64x512 : Shape := ⟨3, ![16, 64, 512]⟩
abbrev S1x1x512 : Shape := ⟨3, ![1, 1, 512]⟩
abbrev S512x1024 : Shape := ⟨2, ![512, 1024]⟩
abbrev S1024x1024 : Shape := ⟨2, ![1024, 1024]⟩
abbrev S1024x1 : Shape := ⟨2, ![1024, 1]⟩
abbrev S16x64x1024 : Shape := ⟨3, ![16, 64, 1024]⟩

abbrev nBuf : Space → Nat
  | .hbm => 11
  | .vmem => 11
  | .smem => 0
  | _ => 0

abbrev bufTy : (tb : Table) → Fin (tcTables nBuf tb) → BufTy
  | .hbm, ⟨0, _⟩ => ⟨S8x256x256, .f32⟩
  | .hbm, ⟨1, _⟩ => ⟨S8x64x256, .f32⟩
  | .hbm, ⟨2, _⟩ => ⟨S512x512, .f32⟩
  | .hbm, ⟨3, _⟩ => ⟨S512, .f32⟩
  | .hbm, ⟨4, _⟩ => ⟨S1024x512, .f32⟩
  | .hbm, ⟨5, _⟩ => ⟨S1024, .f32⟩
  | .hbm, ⟨6, _⟩ => ⟨S512x256, .f32⟩
  | .hbm, ⟨7, _⟩ => ⟨S512x256, .f32⟩
  | .hbm, ⟨8, _⟩ => ⟨S1x512, .f32⟩
  | .hbm, ⟨9, _⟩ => ⟨S1x1024, .f32⟩
  | .hbm, ⟨10, _⟩ => ⟨S8x256x64x1024, .f32⟩
  | .local _ .vmem, ⟨0, _⟩ => ⟨S1x16x256, .f32⟩
  | .local _ .vmem, ⟨1, _⟩ => ⟨S1x16x256, .f32⟩
  | .local _ .vmem, ⟨2, _⟩ => ⟨S1x64x256, .f32⟩
  | .local _ .vmem, ⟨3, _⟩ => ⟨S1x64x256, .f32⟩
  | .local _ .vmem, ⟨4, _⟩ => ⟨S512x256, .f32⟩
  | .local _ .vmem, ⟨5, _⟩ => ⟨S512x256, .f32⟩
  | .local _ .vmem, ⟨6, _⟩ => ⟨S1x512, .f32⟩
  | .local _ .vmem, ⟨7, _⟩ => ⟨S1024x512, .f32⟩
  | .local _ .vmem, ⟨8, _⟩ => ⟨S1x1024, .f32⟩
  | .local _ .vmem, ⟨9, _⟩ => ⟨S1x16x64x1024, .f32⟩
  | .local _ .vmem, ⟨10, _⟩ => ⟨S1x16x64x1024, .f32⟩
  | _, _ => ⟨S8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x16x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S512x512_S512x256_0_0 : S512x512.Slices ![0, 0] S512x256
  slices_S512x512_S512x256_0_256 : S512x512.Slices ![0, 256] S512x256
  shapeCasts_S512_S1x512 : S512.ShapeCasts S1x512
  shapeCasts_S1024_S1x1024 : S1024.ShapeCasts S1x1024
  inb_S1x16x256_S1x16x256_0_0_0 : ∀ a, (![0, 0, 0] : Fin 3 → Nat) a + S1x16x256.size a ≤ S1x16x256.size a
  h_S1x16x256 : 0 < S1x16x256.numel
  shapeCasts_S1x16x256_S16x256 : S1x16x256.ShapeCasts S16x256
  bitsLt_bf16_f32 : FTy.bits .bf16 < FTy.bits .f32
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S16x512_S16x1x512 : S16x512.ShapeCasts S16x1x512
  shapeCasts_S64x512_S1x64x512 : S64x512.ShapeCasts S1x64x512
  broadcasts_S16x1x512_S16x64x512 : S16x1x512.Broadcasts S16x64x512
  broadcasts_S1x64x512_S16x64x512 : S1x64x512.Broadcasts S16x64x512
  shapeCasts_S1x512_S1x1x512 : S1x512.ShapeCasts S1x1x512
  broadcasts_S1x1x512_S16x64x512 : S1x1x512.Broadcasts S16x64x512
  shapeCasts_S16x64x512_S1024x512 : S16x64x512.ShapeCasts S1024x512
  inb_S1024x512_S1024x512_0_0 : ∀ a, (![0, 0] : Fin 2 → Nat) a + S1024x512.size a ≤ S1024x512.size a
  h_S1024x512 : 0 < S1024x512.numel
  transposes_S1024x512_p1_0_S512x1024 : S1024x512.Transposes [1, 0] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1024_S16x64x1024 : S1024x1024.ShapeCasts S16x64x1024
  inb_S1x16x64x1024_S1x16x64x1024_0_0_0_0 : ∀ a, (![0, 0, 0, 0] : Fin 4 → Nat) a + S1x16x64x1024.size a ≤ S1x16x64x1024.size a
  h_S1x16x64x1024 : 0 < S1x16x64x1024.numel
  shapeCasts_S1x16x64x1024_S16x64x1024 : S1x16x64x1024.ShapeCasts S16x64x1024
  shapeCasts_S16x64x1024_S1x16x64x1024 : S16x64x1024.ShapeCasts S1x16x64x1024
  dot_S16x256_S256x512_S16x512_1_0_0_1_n_n_wf : DotDims.WF S16x256 S256x512 S16x512 [1] [0] [0] [1] [] []
  dot_S64x256_S256x512_S64x512_1_0_0_1_n_n_wf : DotDims.WF S64x256 S256x512 S64x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256.size a ≤ S8x256x256.size a
  hwx0_0 : ∀ i : grid0.Coords, EltTy.bits .f32 = 32 ∨ (Rect.block (s := S8x256x256) S1x16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x256.size a ≤ S8x64x256.size a
  hwx0_1 : ∀ i : grid0.Coords, EltTy.bits .f32 = 32 ∨ (Rect.block (s := S8x64x256) S1x64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x512.size a
  hwx0_5 : ∀ i : grid0.Coords, EltTy.bits .f32 = 32 ∨ (Rect.block (s := S1024x512) S1024x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x64x1024.size a ≤ S8x256x64x1024.size a
  hwx0_7 : ∀ i : grid0.Coords, EltTy.bits .f32 = 32 ∨ (Rect.block (s := S8x256x64x1024) S1x16x64x1024.size (cc0_transform_7 i) (hinb0_7 i)).WholeWords (EltTy.packing .f32)

variable [Facts₀]

def dot_S16x256_S256x512_S16x512_1_0_0_1_n_n : DotDims S16x256 S256x512 S16x512 where
  lhsContracting := [1]
  rhsContracting := [0]
  lhsNonContracting := [0]
  rhsNonContracting := [1]
  lhsBatch := []
  rhsBatch := []
  wf := dot_S16x256_S256x512_S16x512_1_0_0_1_n_n_wf
def dot_S64x256_S256x512_S64x512_1_0_0_1_n_n : DotDims S64x256 S256x512 S64x512 where
  lhsContracting := [1]
  rhsContracting := [0]
  lhsNonContracting := [0]
  rhsNonContracting := [1]
  lhsBatch := []
  rhsBatch := []
  wf := dot_S64x256_S256x512_S64x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1024x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x16x64x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x256x256 : Shape := ⟨3, ![8, 256, 256]⟩
abbrev S8x64x256 : Shape := ⟨3, ![8, 64, 256]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S512x256 : Shape := ⟨2, ![512, 256]⟩
abbrev S8x256x512 : Shape := ⟨3, ![8, 256, 512]⟩
abbrev S8x64x512 : Shape := ⟨3, ![8, 64, 512]⟩
abbrev S8x256x1x512 : Shape := ⟨4, ![8, 256, 1, 512]⟩
abbrev S8x1x64x512 : Shape := ⟨4, ![8, 1, 64, 512]⟩
abbrev S8x256x64x512 : Shape := ⟨4, ![8, 256, 64, 512]⟩
abbrev S1x1x1x512 : Shape := ⟨4, ![1, 1, 1, 512]⟩
abbrev S8x256x64x1024 : Shape := ⟨4, ![8, 256, 64, 1024]⟩
abbrev S1x1x1x1024 : Shape := ⟨4, ![1, 1, 1, 1024]⟩
abbrev S_ : Shape := ⟨0, ![]⟩
abbrev S8x256x64 : Shape := ⟨3, ![8, 256, 64]⟩
abbrev S8x256x64x1 : Shape := ⟨4, ![8, 256, 64, 1]⟩

abbrev nBuf : Space → Nat
  | .hbm => 38
  | .vmem => 0
  | .smem => 0
  | _ => 0

abbrev bufTy : (tb : Table) → Fin (tcTables nBuf tb) → BufTy
  | .hbm, ⟨0, _⟩ => ⟨S8x256x256, .f32⟩
  | .hbm, ⟨1, _⟩ => ⟨S8x64x256, .f32⟩
  | .hbm, ⟨2, _⟩ => ⟨S512x512, .f32⟩
  | .hbm, ⟨3, _⟩ => ⟨S512, .f32⟩
  | .hbm, ⟨4, _⟩ => ⟨S1024x512, .f32⟩
  | .hbm, ⟨5, _⟩ => ⟨S1024, .f32⟩
  | .hbm, ⟨6, _⟩ => ⟨S512x256, .f32⟩
  | .hbm, ⟨7, _⟩ => ⟨S512x256, .f32⟩
  | .hbm, ⟨8, _⟩ => ⟨S8x256x512, .f32⟩
  | .hbm, ⟨9, _⟩ => ⟨S8x64x512, .f32⟩
  | .hbm, ⟨10, _⟩ => ⟨S8x256x1x512, .f32⟩
  | .hbm, ⟨11, _⟩ => ⟨S8x1x64x512, .f32⟩
  | .hbm, ⟨12, _⟩ => ⟨S8x256x64x512, .f32⟩
  | .hbm, ⟨13, _⟩ => ⟨S8x256x64x512, .f32⟩
  | .hbm, ⟨14, _⟩ => ⟨S8x256x64x512, .f32⟩
  | .hbm, ⟨15, _⟩ => ⟨S1x1x1x512, .f32⟩
  | .hbm, ⟨16, _⟩ => ⟨S8x256x64x512, .f32⟩
  | .hbm, ⟨17, _⟩ => ⟨S8x256x64x512, .f32⟩
  | .hbm, ⟨18, _⟩ => ⟨S8x256x64x512, .f32⟩
  | .hbm, ⟨19, _⟩ => ⟨S8x256x64x1024, .f32⟩
  | .hbm, ⟨20, _⟩ => ⟨S1x1x1x1024, .f32⟩
  | .hbm, ⟨21, _⟩ => ⟨S8x256x64x1024, .f32⟩
  | .hbm, ⟨22, _⟩ => ⟨S8x256x64x1024, .f32⟩
  | .hbm, ⟨23, _⟩ => ⟨S_, .f32⟩
  | .hbm, ⟨24, _⟩ => ⟨S8x256x64, .f32⟩
  | .hbm, ⟨25, _⟩ => ⟨S_, .f32⟩
  | .hbm, ⟨26, _⟩ => ⟨S8x256x64, .f32⟩
  | .hbm, ⟨27, _⟩ => ⟨S8x256x64, .f32⟩
  | .hbm, ⟨28, _⟩ => ⟨S8x256x64x1, .f32⟩
  | .hbm, ⟨29, _⟩ => ⟨S8x256x64x1024, .f32⟩
  | .hbm, ⟨30, _⟩ => ⟨S8x256x64x1024, .f32⟩
  | .hbm, ⟨31, _⟩ => ⟨S8x256x64x1024, .f32⟩
  | .hbm, ⟨32, _⟩ => ⟨S_, .f32⟩
  | .hbm, ⟨33, _⟩ => ⟨S8x256x64, .f32⟩
  | .hbm, ⟨34, _⟩ => ⟨S8x256x64x1, .f32⟩
  | .hbm, ⟨35, _⟩ => ⟨S8x256x64x1, .f32⟩
  | .hbm, ⟨36, _⟩ => ⟨S8x256x64x1024, .f32⟩
  | .hbm, ⟨37, _⟩ => ⟨S8x256x64x1024, .f32⟩
  | _, _ => ⟨S8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_cst : Ref sig .tc := ⟨.hbm, 23, rfl⟩
abbrev main_call0_v0 : Ref sig .tc := ⟨.hbm, 24, rfl⟩
abbrev main_call0_cst_0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_cst_1 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_v17 : Ref sig .tc := ⟨.hbm, 37, rfl⟩

abbrev nD : Nat := 1
abbrev τ : Topo := Topo.v7x

variable {F : FTy → Type} [FloatOps F]

class Facts₀ : Prop where
  slices_S512x512_S512x256_0_0 : S512x512.Slices ![0, 0] S512x256
  slices_S512x512_S512x256_0_256 : S512x512.Slices ![0, 256] S512x256
  bcast_S8x256x512_S8x256x1x512_0_1_3 : S8x256x512.BroadcastsInDim S8x256x1x512 (![0, 1, 3] : Fin 3 → Fin S8x256x1x512.rank)
  bcast_S8x64x512_S8x1x64x512_0_2_3 : S8x64x512.BroadcastsInDim S8x1x64x512 (![0, 2, 3] : Fin 3 → Fin S8x1x64x512.rank)
  bcast_S8x256x1x512_S8x256x64x512_0_1_2_3 : S8x256x1x512.BroadcastsInDim S8x256x64x512 (![0, 1, 2, 3] : Fin 4 → Fin S8x256x64x512.rank)
  bcast_S8x1x64x512_S8x256x64x512_0_1_2_3 : S8x1x64x512.BroadcastsInDim S8x256x64x512 (![0, 1, 2, 3] : Fin 4 → Fin S8x256x64x512.rank)
  bcast_S512_S1x1x1x512_3 : S512.BroadcastsInDim S1x1x1x512 (![3] : Fin 1 → Fin S1x1x1x512.rank)
  bcast_S1x1x1x512_S8x256x64x512_0_1_2_3 : S1x1x1x512.BroadcastsInDim S8x256x64x512 (![0, 1, 2, 3] : Fin 4 → Fin S8x256x64x512.rank)
  bcast_S1024_S1x1x1x1024_3 : S1024.BroadcastsInDim S1x1x1x1024 (![3] : Fin 1 → Fin S1x1x1x1024.rank)
  bcast_S1x1x1x1024_S8x256x64x1024_0_1_2_3 : S1x1x1x1024.BroadcastsInDim S8x256x64x1024 (![0, 1, 2, 3] : Fin 4 → Fin S8x256x64x1024.rank)
  reducesTo_S8x256x64x1024_S8x256x64_d3 : S8x256x64x1024.ReducesTo [3] S8x256x64
  h_S_ : 0 < S_.numel
  bcast_S_S8x256x64 : S_.BroadcastsInDim S8x256x64 (![] : Fin 0 → Fin S8x256x64.rank)
  bcast_S8x256x64_S8x256x64x1_0_1_2 : S8x256x64.BroadcastsInDim S8x256x64x1 (![0, 1, 2] : Fin 3 → Fin S8x256x64x1.rank)
  bcast_S8x256x64x1_S8x256x64x1024_0_1_2_3 : S8x256x64x1.BroadcastsInDim S8x256x64x1024 (![0, 1, 2, 3] : Fin 4 → Fin S8x256x64x1024.rank)
  dot_S8x256x256_S512x256_S8x256x512_2_1_01_0_n_n_wf : DotDims.WF S8x256x256 S512x256 S8x256x512 [2] [1] [0, 1] [0] [] []
  dot_S8x64x256_S512x256_S8x64x512_2_1_01_0_n_n_wf : DotDims.WF S8x64x256 S512x256 S8x64x512 [2] [1] [0, 1] [0] [] []
  dot_S8x256x64x512_S1024x512_S8x256x64x1024_3_1_012_0_n_n_wf : DotDims.WF S8x256x64x512 S1024x512 S8x256x64x1024 [3] [1] [0, 1, 2] [0] [] []

variable [Facts₀]

def dot_S8x256x256_S512x256_S8x256x512_2_1_01_0_n_n : DotDims S8x256x256 S512x256 S8x256x512 where
  lhsContracting := [2]
  rhsContracting := [1]
  lhsNonContracting := [0, 1]
  rhsNonContracting := [0]
  lhsBatch := []
  rhsBatch := []
  wf := dot_S8x256x256_S512x256_S8x256x512_2_1_01_0_n_n_wf
def dot_S8x64x256_S512x256_S8x64x512_2_1_01_0_n_n : DotDims S8x64x256 S512x256 S8x64x512 where
  lhsContracting := [2]
  rhsContracting := [1]
  lhsNonContracting := [0, 1]
  rhsNonContracting := [0]
  lhsBatch := []
  rhsBatch := []
  wf := dot_S8x64x256_S512x256_S8x64x512_2_1_01_0_n_n_wf
def dot_S8x256x64x512_S1024x512_S8x256x64x1024_3_1_012_0_n_n : DotDims S8x256x64x512 S1024x512 S8x256x64x1024 where
  lhsContracting := [3]
  rhsContracting := [1]
  lhsNonContracting := [0, 1, 2]
  rhsNonContracting := [0]
  lhsBatch := []
  rhsBatch := []
  wf := dot_S8x256x64x512_S1024x512_S8x256x64x1024_3_1_012_0_n_n_wf

class Facts : Prop extends Facts₀ where

variable [Facts]
-- ==== Proof.JointSpec.lean ====
/-
  The function both programs compute, on the extended reals.

  A batch entry `b`, an encoder step `t` and a decoder step `u` give a row of 1024 logits. The encoder step is
  projected through the first 256 columns of the first weight matrix and the decoder step through its last 256
  columns; the two projections and the first bias are added and put through `tanh`, which gives 512 hidden
  values; their products with a row of the second weight matrix are summed and the second bias is added. The result is the
  log-softmax of that row: the row less its maximum, less the logarithm of the sum of the exponentials of the
  row less its maximum. The maximum is the fold of `max` over the row from the value of the pattern `0xFF800000`,
  which is never evaluated: both programs start their maximum from that same pattern.
-/
import Idealize.ShloMosaic.PureOps.Ideal
import Idealize.ShloMosaic.Lib.ValueIdx

noncomputable section

namespace Cert.Joint

open Idealize.ShloMosaic Idealize.ShloMosaic.ValueIdx

/-- Column `e` of the encoder half of the first weight matrix: its first 256 columns. -/
abbrev encCol (e : Fin 256) : Fin 512 := ⟨e.val, by have := e.isLt; omega⟩
/-- Column `p` of the decoder half: its last 256 columns. -/
abbrev decCol (p : Fin 256) : Fin 512 := ⟨256 + p.val, by have := p.isLt; omega⟩

/-- The log-softmax of one row at one position: the row less its maximum, less the logarithm of the sum of the
    exponentials of the row less its maximum. -/
def logSoftmaxRow (x : Fin 1024 → EReal) (v : Fin 1024) : EReal :=
  (x v - (Finset.univ : Finset (Fin 1024)).fold max (Ideal.ofBits .f32 0xFF800000#32) x)
    - Ideal.log (∑ w : Fin 1024, Ideal.exp (x w - (Finset.univ : Finset (Fin 1024)).fold max (Ideal.ofBits .f32 0xFF800000#32) x))

variable (enc : (⟨3, ![8, 256, 256]⟩ : Shape).Idx → EReal) (dec : (⟨3, ![8, 64, 256]⟩ : Shape).Idx → EReal)
  (W1 : (⟨2, ![512, 512]⟩ : Shape).Idx → EReal) (b1 : (⟨1, ![512]⟩ : Shape).Idx → EReal)
  (W2 : (⟨2, ![1024, 512]⟩ : Shape).Idx → EReal) (b2 : (⟨1, ![1024]⟩ : Shape).Idx → EReal)

/-- The encoder step `(b, t)` projected onto hidden unit `j`. -/
def encProj (b : Fin 8) (t : Fin 256) (j : Fin 512) : EReal :=
  ∑ e : Fin 256, enc (ix3 b t e) * W1 (ix2 j (encCol e))

/-- The decoder step `(b, u)` projected onto hidden unit `j`. -/
def decProj (b : Fin 8) (u : Fin 64) (j : Fin 512) : EReal :=
  ∑ p : Fin 256, dec (ix3 b u p) * W1 (ix2 j (decCol p))

/-- Hidden unit `j` of the pair of steps `(t, u)` of batch entry `b`. -/
def hidden (b : Fin 8) (t : Fin 256) (u : Fin 64) (j : Fin 512) : EReal :=
  Ideal.tanh (encProj enc W1 b t j + decProj dec W1 b u j + b1 (ix1 j))

/-- Logit `v` of the pair of steps `(t, u)` of batch entry `b`. -/
def logit (b : Fin 8) (t : Fin 256) (u : Fin 64) (v : Fin 1024) : EReal :=
  (∑ j : Fin 512, hidden enc dec W1 b1 b t u j * W2 (ix2 v j)) + b2 (ix1 v)

/-- The result array: at `(b, t, u, v)` the log-softmax of the row of logits of `(b, t, u)`, at `v`. -/
def logProbs : (⟨4, ![8, 256, 64, 1024]⟩ : Shape).Idx → EReal :=
  fun i => logSoftmaxRow (logit enc dec W1 b1 W2 b2 (i 0) (i 1) (i 2)) (i 3)

end Cert.Joint

end
-- ==== Proof.ReferenceIsSpec.lean ====
/-
  The reference computes `Joint.logProbs`.

  Its program is read one operation at a time. The two `dot_general`s are the sums over the 256 columns of each half
  of the first weight matrix, which the program slices out first: they are `encProj` and `decProj`. The broadcasts
  put the encoder projection at every decoder step and the decoder projection at every encoder step, and the bias at both,
  so the sum under `tanh` is `hidden`; the third `dot_general` sums the 512 hidden values against a row of the second
  weight matrix, and with the second bias that is `logit`. The callee then takes the row's maximum twice over: a reduce
  with `maximum` from the pattern of minus infinity, and the `maximum` of that with the same pattern broadcast; the second
  changes nothing, because a fold of `max` that starts from a value is at least that value. What follows, the row less its
  maximum, the exponentials, their sum from zero, its logarithm, and the difference, is `logSoftmaxRow` of the row of logits.
-/
import proofs.«169038_j26439818674455_1_alg».proof.Proof.ReadP
import proofs.«169038_j26439818674455_1_alg».proof.Proof.JointSpec
import Idealize.ShloMosaic.PureOps.Reduce
import Idealize.ShloMosaic.PureOps.Ideal.Laws
import Idealize.ShloMosaic.Lib.ValueIdx

noncomputable section

namespace Cert.Joint.OfReference

open Cert.ReferenceIdeal Cert.ReferenceIdeal.Gen Cert.ReferenceIdeal.ReadP Idealize.ShloMosaic Idealize.ShloMosaic.ValueIdx Cert.Joint

variable (x0 : (⟨S8x256x256, .f32⟩ : BufTy).Contents (Elt Ideal)) (x1 : (⟨S8x64x256, .f32⟩ : BufTy).Contents (Elt Ideal))
  (x2 : (⟨S512x512, .f32⟩ : BufTy).Contents (Elt Ideal)) (x3 : (⟨S512, .f32⟩ : BufTy).Contents (Elt Ideal))
  (x4 : (⟨S1024x512, .f32⟩ : BufTy).Contents (Elt Ideal)) (x5 : (⟨S1024, .f32⟩ : BufTy).Contents (Elt Ideal))

/-- The first `dot_general` at `(b, t, j)`: the encoder step against column block one of row `j`. -/
theorem encProj_at (b : Fin 8) (t : Fin 256) (j : Fin 512) :
    val_main_v2 (F := Ideal) x0 x2 (ix3 b t j) = encProj x0 x2 b t j := by
  rw [val_main_v2_apply]
  unfold encProj
  refine Finset.sum_congr rfl fun e _ => ?_
  rw [val_main_v0_apply]
  have hl : lidx_main_v2 (ix3 b t j) e = ix3 b t e :=
    funext fun a => by match a with | ⟨0, _⟩ => rfl | ⟨1, _⟩ => rfl | ⟨2, _⟩ => rfl
  have hr : idx_main_v0 (ridx_main_v2 (ix3 b t j) e) = ix2 j (encCol e) :=
    funext fun a => by match a with | ⟨0, _⟩ => rfl | ⟨1, _⟩ => rfl
  rw [hl, hr]

/-- The second `dot_general` at `(b, u, j)`: the decoder step against column block two of row `j`. -/
theorem decProj_at (b : Fin 8) (u : Fin 64) (j : Fin 512) :
    val_main_v3 (F := Ideal) x1 x2 (ix3 b u j) = decProj x1 x2 b u j := by
  rw [val_main_v3_apply]
  unfold decProj
  refine Finset.sum_congr rfl fun p _ => ?_
  rw [val_main_v1_apply]
  have hl : lidx_main_v3 (ix3 b u j) p = ix3 b u p :=
    funext fun a => by match a with | ⟨0, _⟩ => rfl | ⟨1, _⟩ => rfl | ⟨2, _⟩ => rfl
  have hr : idx_main_v1 (ridx_main_v3 (ix3 b u j) p) = ix2 j (decCol p) :=
    funext fun a => by match a with | ⟨0, _⟩ => rfl | ⟨1, _⟩ => rfl
  rw [hl, hr]

/-- The value under the third `dot_general` at `(b, t, u, j)`: the two projections broadcast over each other's step,
    the bias broadcast over both, and `tanh`. -/
theorem hidden_at (b : Fin 8) (t : Fin 256) (u : Fin 64) (j : Fin 512) :
    val_main_v12 (F := Ideal) x0 x1 x2 x3 (ix4 b t u j) = hidden x0 x1 x2 x3 b t u j := by
  rw [val_main_v12_apply, val_main_v11_apply, val_main_v8_apply, val_main_v6_apply, val_main_v4_apply,
    val_main_v7_apply, val_main_v5_apply, val_main_v10_apply, val_main_v9_apply]
  have h6 : idx_main_v4 (idx_main_v6 (ix4 b t u j)) = ix3 b t j :=
    funext fun a => by match a with | ⟨0, _⟩ => rfl | ⟨1, _⟩ => rfl | ⟨2, _⟩ => rfl
  have h7 : idx_main_v5 (idx_main_v7 (ix4 b t u j)) = ix3 b u j :=
    funext fun a => by match a with | ⟨0, _⟩ => rfl | ⟨1, _⟩ => rfl | ⟨2, _⟩ => rfl
  have h9 : idx_main_v9 (idx_main_v10 (ix4 b t u j)) = ix1 j :=
    funext fun a => by match a with | ⟨0, _⟩ => rfl
  rw [h6, h7, h9, encProj_at, decProj_at]
  rfl

/-- The callee's argument at `(b, t, u, v)`: the hidden values against row `v` of the second weight matrix, and the bias. -/
theorem logit_at (b : Fin 8) (t : Fin 256) (u : Fin 64) (v : Fin 1024) :
    val_main_v16 (F := Ideal) x0 x1 x2 x3 x4 x5 (ix4 b t u v) = logit x0 x1 x2 x3 x4 x5 b t u v := by
  rw [val_main_v16_apply, val_main_v13_apply, val_main_v15_apply, val_main_v14_apply]
  have h15 : idx_main_v14 (idx_main_v15 (ix4 b t u v)) = ix1 v :=
    funext fun a => by match a with | ⟨0, _⟩ => rfl
  rw [h15]
  unfold logit
  show (∑ k : Fin 512, _) + _ = _
  congr 1
  refine Finset.sum_congr rfl fun k _ => ?_
  have hl : lidx_main_v13 (ix4 b t u v) k = ix4 b t u k :=
    funext fun a => by match a with | ⟨0, _⟩ => rfl | ⟨1, _⟩ => rfl | ⟨2, _⟩ => rfl | ⟨3, _⟩ => rfl
  have hr : ridx_main_v13 (ix4 b t u v) k = ix2 v k :=
    funext fun a => by match a with | ⟨0, _⟩ => rfl | ⟨1, _⟩ => rfl
  rw [hl, hr, hidden_at]

/-- The shape fact the reduced index is put back through: the last axis of four is the one reduced. -/
theorem reducesLast : S8x256x64x1024.Reduces [3] S8x256x64 := by decide

/-- Position `v` of the row `(b, t, u)`. -/
theorem lift_row (b : Fin 8) (t : Fin 256) (u : Fin 64) (v : Fin (S8x256x64x1024.size 3)) :
    reducesLast.lift (ix3 b t u) v = ix4 b t u (⟨v.val, v.isLt⟩ : Fin 1024) := by
  funext c; apply Fin.ext
  fin_cases c <;> rfl

/-- The callee's maximum at `(b, t, u)`: the fold of `max` over the row of logits, from the pattern's value. Taking
    `max` with that value once more changes nothing. -/
theorem rowMax_at (b : Fin 8) (t : Fin 256) (u : Fin 64) :
    val_main_call0_v2 (F := Ideal) x0 x1 x2 x3 x4 x5 (ix3 b t u)
      = (Finset.univ : Finset (Fin 1024)).fold max (Ideal.ofBits .f32 0xFF800000#32) (logit x0 x1 x2 x3 x4 x5 b t u) := by
  rw [val_main_call0_v2_apply, val_main_call0_v1_apply, val_main_call0_cst_0_apply]
  unfold val_main_call0_v0
  rw [Host.reduce_eq_fold_single FloatOps.maximumf _ _ reducesTo_S8x256x64x1024_S8x256x64_d3 reducesLast h_S_,
    val_main_call0_cst_apply]
  have hf : (val_main_v16 (F := Ideal) x0 x1 x2 x3 x4 x5 ∘ reducesLast.lift (ix3 b t u)) = logit x0 x1 x2 x3 x4 x5 b t u := by
    funext v
    show val_main_v16 (F := Ideal) x0 x1 x2 x3 x4 x5 (reducesLast.lift (ix3 b t u) v) = _
    rw [lift_row, logit_at]
    rfl
  rw [hf]
  show max (Ideal.ofBits .f32 0xFF800000#32)
      ((Finset.univ : Finset (Fin 1024)).fold max (Ideal.ofBits .f32 0xFF800000#32) (logit x0 x1 x2 x3 x4 x5 b t u)) = _
  exact max_eq_right ((Finset.le_fold_max _).mpr (Or.inl le_rfl))

/-- The row less its maximum, at `(b, t, u, w)`. -/
theorem shifted_at (b : Fin 8) (t : Fin 256) (u : Fin 64) (w : Fin 1024) :
    val_main_call0_v5 (F := Ideal) x0 x1 x2 x3 x4 x5 (ix4 b t u w)
      = logit x0 x1 x2 x3 x4 x5 b t u w
        - (Finset.univ : Finset (Fin 1024)).fold max (Ideal.ofBits .f32 0xFF800000#32) (logit x0 x1 x2 x3 x4 x5 b t u) := by
  rw [val_main_call0_v5_apply, val_main_call0_v4_apply, val_main_call0_v3_apply, logit_at]
  have h4 : idx_main_call0_v3 (idx_main_call0_v4 (ix4 b t u w)) = ix3 b t u :=
    funext fun a => by match a with | ⟨0, _⟩ => rfl | ⟨1, _⟩ => rfl | ⟨2, _⟩ => rfl
  rw [h4, rowMax_at]
  rfl

/-- The program's result at `(b, t, u, v)` is the log-softmax of the row of logits of `(b, t, u)`, at `v`. -/
theorem result_at (b : Fin 8) (t : Fin 256) (u : Fin 64) (v : Fin 1024) :
    val_main_v17 (F := Ideal) x0 x1 x2 x3 x4 x5 (ix4 b t u v) = logSoftmaxRow (logit x0 x1 x2 x3 x4 x5 b t u) v := by
  rw [val_main_v17_apply, val_main_call0_v10_apply, val_main_call0_v9_apply, val_main_call0_v8_apply,
    val_main_call0_v7_apply, shifted_at, val_main_call0_cst_1_apply]
  have h8 : idx_main_call0_v8 (idx_main_call0_v10 (ix4 b t u v)) = ix3 b t u :=
    funext fun a => by match a with | ⟨0, _⟩ => rfl | ⟨1, _⟩ => rfl | ⟨2, _⟩ => rfl
  rw [h8]
  have hsum : (∑ k : Fin 1024, val_main_call0_v6 (F := Ideal) x0 x1 x2 x3 x4 x5 (idx_main_call0_v7 (ix3 b t u) k))
      = ∑ w : Fin 1024, Ideal.exp (logit x0 x1 x2 x3 x4 x5 b t u w
          - (Finset.univ : Finset (Fin 1024)).fold max (Ideal.ofBits .f32 0xFF800000#32) (logit x0 x1 x2 x3 x4 x5 b t u)) :=
    Finset.sum_congr rfl fun k _ => by
      have hk : idx_main_call0_v7 (ix3 b t u) k = ix4 b t u k :=
        funext fun a => by match a with | ⟨0, _⟩ => rfl | ⟨1, _⟩ => rfl | ⟨2, _⟩ => rfl | ⟨3, _⟩ => rfl
      rw [hk, val_main_call0_v6_apply, shifted_at]
      rfl
  rw [hsum]
  unfold logSoftmaxRow
  show (_ - _) - Ideal.log (Ideal.ofBits .f32 0x00000000#32 + _) = _
  rw [Ideal.ofBits_zero_f32, zero_add]

/-- The reference's result array is `logProbs` of its six arguments. -/
theorem reference_eq : val_main_v17 (F := Ideal) x0 x1 x2 x3 x4 x5 = logProbs x0 x1 x2 x3 x4 x5 := by
  funext i
  obtain ⟨b, t, u, v, rfl⟩ : ∃ (b : Fin 8) (t : Fin 256) (u : Fin 64) (v : Fin 1024), i = ix4 b t u v :=
    ⟨i 0, i 1, i 2, i 3, eq_ix4 i⟩
  rw [result_at]
  rfl

end Cert.Joint.OfReference

end
-- ==== Proof.KernelMatmuls.lean ====
/-
  The kernel's three matrix products, read at an entry.

  Each is a plain product of an M x K matrix and a K x N matrix into a zero accumulator, so at the extended reals its entry
  at row r and column c is the sum over the K contraction positions k of the left entry at (r, k) times the right entry at
  (k, c). The product's own index maps name the two operand positions through the contraction index; on a left axis that is
  not contracted the operand's coordinate is the result's, on the contracted axis it is the contraction position's one
  coordinate, and likewise on the right.
-/
import proofs.«169038_j26439818674455_1_alg».proof.Proof.Gen.KernelIdeal
import Idealize.ShloMosaic.Lib.ValueIdx
import Idealize.ShloMosaic.PureOps.Ideal.Laws

noncomputable section

namespace Cert.Joint.OfKernel

open Cert.KernelIdeal Cert.KernelIdeal.Gen Idealize.ShloMosaic Idealize.ShloMosaic.ValueIdx

/-! ## 16 x 256 times 256 x 512: an encoder block's sixteen steps against the transposed encoder half of the first weight matrix -/

theorem lhsEnc_0 (i : S16x512.Idx) (q : dot_S16x256_S256x512_S16x512_1_0_0_1_n_n.contr.Idx) :
    (dot_S16x256_S256x512_S16x512_1_0_0_1_n_n.lhsIdx i q 0).val = (i 0).val := by
  unfold DotDims.lhsIdx
  rw [dif_neg (show ¬(0 : Fin S16x256.rank) ∈ dot_S16x256_S256x512_S16x512_1_0_0_1_n_n.lhsBatch by decide), dif_pos (show (0 : Fin S16x256.rank) ∈ dot_S16x256_S256x512_S16x512_1_0_0_1_n_n.lhsNonContracting by decide)]
  rfl
theorem lhsEnc_1 (i : S16x512.Idx) (q : dot_S16x256_S256x512_S16x512_1_0_0_1_n_n.contr.Idx) :
    (dot_S16x256_S256x512_S16x512_1_0_0_1_n_n.lhsIdx i q 1).val = (q ⟨0, by decide⟩).val :=
  dot_S16x256_S256x512_S16x512_1_0_0_1_n_n.lhsIdx_val_of_single rfl i q
theorem rhsEnc_0 (i : S16x512.Idx) (q : dot_S16x256_S256x512_S16x512_1_0_0_1_n_n.contr.Idx) :
    (dot_S16x256_S256x512_S16x512_1_0_0_1_n_n.rhsIdx i q 0).val = (q ⟨0, by decide⟩).val :=
  dot_S16x256_S256x512_S16x512_1_0_0_1_n_n.rhsIdx_val_of_single rfl i q
theorem rhsEnc_1 (i : S16x512.Idx) (q : dot_S16x256_S256x512_S16x512_1_0_0_1_n_n.contr.Idx) :
    (dot_S16x256_S256x512_S16x512_1_0_0_1_n_n.rhsIdx i q 1).val = (i 1).val := by
  unfold DotDims.rhsIdx
  rw [dif_neg (show ¬(1 : Fin S256x512.rank) ∈ dot_S16x256_S256x512_S16x512_1_0_0_1_n_n.rhsBatch by decide), dif_pos (show (1 : Fin S256x512.rank) ∈ dot_S16x256_S256x512_S16x512_1_0_0_1_n_n.rhsNonContracting by decide)]
  rfl

/-- The product into the zero accumulator at `(r, c)`: the sum over the 256 contraction positions. -/
theorem matmulEnc_at {φ₁ φ₂ : FTy} (x : FVec Ideal S16x256 φ₁) (w : FVec Ideal S256x512 φ₂) (r : Fin 16) (c : Fin 512) :
    matmul dot_S16x256_S256x512_S16x512_1_0_0_1_n_n none x w (constant S16x512 .f32 0x00000000#32) (ix2 r c)
      = ∑ k : Fin 256, x (ix2 r k) * w (ix2 k c) := by
  simp only [matmul]
  rw [Ideal.matmul_constant_zero_apply, ← Equiv.sum_comp (ValueIdx.contrEquiv1 dot_S16x256_S256x512_S16x512_1_0_0_1_n_n 256 rfl rfl).symm]
  refine Finset.sum_congr rfl fun k _ => ?_
  have hk := ValueIdx.contrEquiv1_symm_val dot_S16x256_S256x512_S16x512_1_0_0_1_n_n 256 rfl rfl k
  have el : dot_S16x256_S256x512_S16x512_1_0_0_1_n_n.lhsIdx (ix2 r c) ((ValueIdx.contrEquiv1 dot_S16x256_S256x512_S16x512_1_0_0_1_n_n 256 rfl rfl).symm k) = ix2 r k := funext fun a => Fin.ext (by
    match a with
    | ⟨0, _⟩ => exact lhsEnc_0 _ _
    | ⟨1, _⟩ => exact (lhsEnc_1 _ _).trans hk)
  have er : dot_S16x256_S256x512_S16x512_1_0_0_1_n_n.rhsIdx (ix2 r c) ((ValueIdx.contrEquiv1 dot_S16x256_S256x512_S16x512_1_0_0_1_n_n 256 rfl rfl).symm k) = ix2 k c := funext fun a => Fin.ext (by
    match a with
    | ⟨0, _⟩ => exact (rhsEnc_0 _ _).trans hk
    | ⟨1, _⟩ => exact rhsEnc_1 _ _)
  rw [el, er]

/-! ## 64 x 256 times 256 x 512: the decoder steps against the transposed decoder half of the first weight matrix -/

theorem lhsDec_0 (i : S64x512.Idx) (q : dot_S64x256_S256x512_S64x512_1_0_0_1_n_n.contr.Idx) :
    (dot_S64x256_S256x512_S64x512_1_0_0_1_n_n.lhsIdx i q 0).val = (i 0).val := by
  unfold DotDims.lhsIdx
  rw [dif_neg (show ¬(0 : Fin S64x256.rank) ∈ dot_S64x256_S256x512_S64x512_1_0_0_1_n_n.lhsBatch by decide), dif_pos (show (0 : Fin S64x256.rank) ∈ dot_S64x256_S256x512_S64x512_1_0_0_1_n_n.lhsNonContracting by decide)]
  rfl
theorem lhsDec_1 (i : S64x512.Idx) (q : dot_S64x256_S256x512_S64x512_1_0_0_1_n_n.contr.Idx) :
    (dot_S64x256_S256x512_S64x512_1_0_0_1_n_n.lhsIdx i q 1).val = (q ⟨0, by decide⟩).val :=
  dot_S64x256_S256x512_S64x512_1_0_0_1_n_n.lhsIdx_val_of_single rfl i q
theorem rhsDec_0 (i : S64x512.Idx) (q : dot_S64x256_S256x512_S64x512_1_0_0_1_n_n.contr.Idx) :
    (dot_S64x256_S256x512_S64x512_1_0_0_1_n_n.rhsIdx i q 0).val = (q ⟨0, by decide⟩).val :=
  dot_S64x256_S256x512_S64x512_1_0_0_1_n_n.rhsIdx_val_of_single rfl i q
theorem rhsDec_1 (i : S64x512.Idx) (q : dot_S64x256_S256x512_S64x512_1_0_0_1_n_n.contr.Idx) :
    (dot_S64x256_S256x512_S64x512_1_0_0_1_n_n.rhsIdx i q 1).val = (i 1).val := by
  unfold DotDims.rhsIdx
  rw [dif_neg (show ¬(1 : Fin S256x512.rank) ∈ dot_S64x256_S256x512_S64x512_1_0_0_1_n_n.rhsBatch by decide), dif_pos (show (1 : Fin S256x512.rank) ∈ dot_S64x256_S256x512_S64x512_1_0_0_1_n_n.rhsNonContracting by decide)]
  rfl

/-- The product into the zero accumulator at `(r, c)`: the sum over the 256 contraction positions. -/
theorem matmulDec_at {φ₁ φ₂ : FTy} (x : FVec Ideal S64x256 φ₁) (w : FVec Ideal S256x512 φ₂) (r : Fin 64) (c : Fin 512) :
    matmul dot_S64x256_S256x512_S64x512_1_0_0_1_n_n none x w (constant S64x512 .f32 0x00000000#32) (ix2 r c)
      = ∑ k : Fin 256, x (ix2 r k) * w (ix2 k c) := by
  simp only [matmul]
  rw [Ideal.matmul_constant_zero_apply, ← Equiv.sum_comp (ValueIdx.contrEquiv1 dot_S64x256_S256x512_S64x512_1_0_0_1_n_n 256 rfl rfl).symm]
  refine Finset.sum_congr rfl fun k _ => ?_
  have hk := ValueIdx.contrEquiv1_symm_val dot_S64x256_S256x512_S64x512_1_0_0_1_n_n 256 rfl rfl k
  have el : dot_S64x256_S256x512_S64x512_1_0_0_1_n_n.lhsIdx (ix2 r c) ((ValueIdx.contrEquiv1 dot_S64x256_S256x512_S64x512_1_0_0_1_n_n 256 rfl rfl).symm k) = ix2 r k := funext fun a => Fin.ext (by
    match a with
    | ⟨0, _⟩ => exact lhsDec_0 _ _
    | ⟨1, _⟩ => exact (lhsDec_1 _ _).trans hk)
  have er : dot_S64x256_S256x512_S64x512_1_0_0_1_n_n.rhsIdx (ix2 r c) ((ValueIdx.contrEquiv1 dot_S64x256_S256x512_S64x512_1_0_0_1_n_n 256 rfl rfl).symm k) = ix2 k c := funext fun a => Fin.ext (by
    match a with
    | ⟨0, _⟩ => exact (rhsDec_0 _ _).trans hk
    | ⟨1, _⟩ => exact rhsDec_1 _ _)
  rw [el, er]

/-! ## 1024 x 512 times 512 x 1024: the 1024 rows of hidden values against the transposed second weight matrix -/

theorem lhsOut_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhsOut_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhsOut_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhsOut_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The product into the zero accumulator at `(r, c)`: the sum over the 512 contraction positions. -/
theorem matmulOut_at {φ₁ φ₂ : FTy} (x : FVec Ideal S1024x512 φ₁) (w : FVec Ideal S512x1024 φ₂) (r : Fin 1024) (c : Fin 1024) :
    matmul dot_S1024x512_S512x1024_S1024x1024_1_0_0_1_n_n none x w (constant S1024x1024 .f32 0x00000000#32) (ix2 r c)
      = ∑ k : Fin 512, x (ix2 r k) * w (ix2 k c) := by
  simp only [matmul]
  rw [Ideal.matmul_constant_zero_apply, ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 r c) ((ValueIdx.contrEquiv1 dot_S1024x512_S512x1024_S1024x1024_1_0_0_1_n_n 512 rfl rfl).symm k) = ix2 r k := funext fun a => Fin.ext (by
    match a with
    | ⟨0, _⟩ => exact lhsOut_0 _ _
    | ⟨1, _⟩ => exact (lhsOut_1 _ _).trans hk)
  have er : dot_S1024x512_S512x1024_S1024x1024_1_0_0_1_n_n.rhsIdx (ix2 r c) ((ValueIdx.contrEquiv1 dot_S1024x512_S512x1024_S1024x1024_1_0_0_1_n_n 512 rfl rfl).symm k) = ix2 k c := funext fun a => Fin.ext (by
    match a with
    | ⟨0, _⟩ => exact (rhsOut_0 _ _).trans hk
    | ⟨1, _⟩ => exact rhsOut_1 _ _)
  rw [el, er]

end Cert.Joint.OfKernel

end
-- ==== Proof.KernelBlock.lean ====
/-
  What the kernel's body computes before its softmax: the 1024 x 1024 array of logits of one block, read at an entry.

  A block holds sixteen encoder steps of one batch entry, all 64 decoder steps of that entry, the two halves of the first
  weight matrix, the first bias as a row, the second weight matrix and the second bias as a row. The body drops the leading
  unit axis of the two step blocks, transposes each weight matrix so that its product with the steps contracts the feature
  axis, lays the encoder product out over a new middle axis and the decoder product over a new leading axis and broadcasts
  both, and the bias, to 16 x 64 x 512; after `tanh` it flattens the two step axes to the 1024 rows `tt * 64 + u`, multiplies
  by the transposed second weight matrix and adds the second bias broadcast down the rows. Changes of float format are the
  identity at the extended reals. Read at row `tt * 64 + u` and column `v` this is the same formula as the reference's logit,
  over the block's own arrays: `blkLogit`.
-/
import proofs.«169038_j26439818674455_1_alg».proof.Proof.Gen.KernelIdeal.Skeleton
import proofs.«169038_j26439818674455_1_alg».proof.Proof.KernelMatmuls
import Idealize.ShloMosaic.Lib.Pipeline.Value
import Idealize.ShloMosaic.Lib.ValueIdx
import Idealize.ShloMosaic.PureOps.Ideal.Laws

noncomputable section

namespace Cert.Joint.OfKernel

open Cert.KernelIdeal Cert.KernelIdeal.Gen Idealize.ShloMosaic Idealize.ShloMosaic.ValueIdx

/-- Row `tt * 64 + u` of a block's 1024 rows: encoder step `tt` of the block's sixteen with decoder step `u`. -/
abbrev row (tt : Fin 16) (u : Fin 64) : Fin 1024 := ⟨tt.val * 64 + u.val, by have := tt.isLt; have := u.isLt; omega⟩

/-! ## The body's changes of layout, read at an index -/

section Layout
variable {α : Type}

theorem dropUnit16 (x : S1x16x256.Idx → α) (h : S1x16x256.ShapeCasts S16x256) (tt : Fin 16) (e : Fin 256) :
    shapeCast S16x256 x h (ix2 tt e) = x (ix3 0 tt e) :=
  shapeCast_apply x h (ix2 tt e) (ix3 0 tt e) (by
    rw [Shape.rowMajor_val_three, Shape.rowMajor_val_two]
    show (0 * 16 + tt.val) * 256 + e.val = tt.val * 256 + e.val
    omega)

theorem dropUnit64 (x : S1x64x256.Idx → α) (h : S1x64x256.ShapeCasts S64x256) (u : Fin 64) (p : Fin 256) :
    shapeCast S64x256 x h (ix2 u p) = x (ix3 0 u p) :=
  shapeCast_apply x h (ix2 u p) (ix3 0 u p) (by
    rw [Shape.rowMajor_val_three, Shape.rowMajor_val_two]
    show (0 * 64 + u.val) * 256 + p.val = u.val * 256 + p.val
    omega)

theorem transposeHalf (x : S512x256.Idx → α) (h : S512x256.Transposes [1, 0] S256x512) (e : Fin 256) (j : Fin 512) :
    transpose S256x512 [1, 0] x h (ix2 e j) = x (ix2 j e) :=
  transpose_apply [1, 0] x h (ix2 e j) (ix2 j e) (fun b => match b with | ⟨0, _⟩ => rfl | ⟨1, _⟩ => rfl)

theorem transposeOut (x : S1024x512.Idx → α) (h : S1024x512.Transposes [1, 0] S512x1024) (j : Fin 512) (v : Fin 1024) :
    transpose S512x1024 [1, 0] x h (ix2 j v) = x (ix2 v j) :=
  transpose_apply [1, 0] x h (ix2 j v) (ix2 v j) (fun b => match b with | ⟨0, _⟩ => rfl | ⟨1, _⟩ => rfl)

theorem addMiddle (x : S16x512.Idx → α) (h : S16x512.ShapeCasts S16x1x512) (tt : Fin 16) (j : Fin 512) :
    shapeCast S16x1x512 x h (ix3 tt 0 j) = x (ix2 tt j) :=
  shapeCast_apply x h (ix3 tt 0 j) (ix2 tt j) (by
    rw [Shape.rowMajor_val_three, Shape.rowMajor_val_two]
    show tt.val * 512 + j.val = (tt.val * 1 + 0) * 512 + j.val
    omega)

theorem addLeading64 (x : S64x512.Idx → α) (h : S64x512.ShapeCasts S1x64x512) (u : Fin 64) (j : Fin 512) :
    shapeCast S1x64x512 x h (ix3 0 u j) = x (ix2 u j) :=
  shapeCast_apply x h (ix3 0 u j) (ix2 u j) (by
    rw [Shape.rowMajor_val_three, Shape.rowMajor_val_two]
    show u.val * 512 + j.val = (0 * 64 + u.val) * 512 + j.val
    omega)

theorem addLeading1 (x : S1x512.Idx → α) (h : S1x512.ShapeCasts S1x1x512) (j : Fin 512) :
    shapeCast S1x1x512 x h (ix3 0 0 j) = x (ix2 0 j) :=
  shapeCast_apply x h (ix3 0 0 j) (ix2 0 j) (by
    rw [Shape.rowMajor_val_three, Shape.rowMajor_val_two]
    show 0 * 512 + j.val = (0 * 1 + 0) * 512 + j.val
    omega)

theorem overDecoderSteps (x : S16x1x512.Idx → α) (h : S16x1x512.Broadcasts S16x64x512) (tt : Fin 16) (u : Fin 64) (j : Fin 512) :
    broadcastTo S16x64x512 x h (ix3 tt u j) = x (ix3 tt 0 j) :=
  broadcastTo_apply x h (ix3 tt u j) (ix3 tt 0 j) (fun a => match a with
    | ⟨0, _⟩ => by show tt.val = (if (16 : Nat) = 1 then 0 else tt.val); rw [if_neg (by decide)]
    | ⟨1, _⟩ => by show 0 = (if (1 : Nat) = 1 then 0 else u.val); rw [if_pos rfl]
    | ⟨2, _⟩ => by show j.val = (if (512 : Nat) = 1 then 0 else j.val); rw [if_neg (by decide)])

theorem overEncoderSteps (x : S1x64x512.Idx → α) (h : S1x64x512.Broadcasts S16x64x512) (tt : Fin 16) (u : Fin 64) (j : Fin 512) :
    broadcastTo S16x64x512 x h (ix3 tt u j) = x (ix3 0 u j) :=
  broadcastTo_apply x h (ix3 tt u j) (ix3 0 u j) (fun a => match a with
    | ⟨0, _⟩ => by show 0 = (if (1 : Nat) = 1 then 0 else tt.val); rw [if_pos rfl]
    | ⟨1, _⟩ => by show u.val = (if (64 : Nat) = 1 then 0 else u.val); rw [if_neg (by decide)]
    | ⟨2, _⟩ => by show j.val = (if (512 : Nat) = 1 then 0 else j.val); rw [if_neg (by decide)])

theorem overBothSteps (x : S1x1x512.Idx → α) (h : S1x1x512.Broadcasts S16x64x512) (tt : Fin 16) (u : Fin 64) (j : Fin 512) :
    broadcastTo S16x64x512 x h (ix3 tt u j) = x (ix3 0 0 j) :=
  broadcastTo_apply x h (ix3 tt u j) (ix3 0 0 j) (fun a => match a with
    | ⟨0, _⟩ => by show 0 = (if (1 : Nat) = 1 then 0 else tt.val); rw [if_pos rfl]
    | ⟨1, _⟩ => by show 0 = (if (1 : Nat) = 1 then 0 else u.val); rw [if_pos rfl]
    | ⟨2, _⟩ => by show j.val = (if (512 : Nat) = 1 then 0 else j.val); rw [if_neg (by decide)])

theorem flattenSteps (x : S16x64x512.Idx → α) (h : S16x64x512.ShapeCasts S1024x512) (tt : Fin 16) (u : Fin 64) (j : Fin 512) :
    shapeCast S1024x512 x h (ix2 (row tt u) j) = x (ix3 tt u j) :=
  shapeCast_apply x h (ix2 (row tt u) j) (ix3 tt u j) (by
    rw [Shape.rowMajor_val_three, Shape.rowMajor_val_two]
    show (tt.val * 64 + u.val) * 512 + j.val = (tt.val * 64 + u.val) * 512 + j.val
    rfl)

theorem downRows (x : S1x1024.Idx → α) (h : S1x1024.Broadcasts S1024x1024) (r v : Fin 1024) :
    broadcastTo S1024x1024 x h (ix2 r v) = x (ix2 0 v) :=
  broadcastTo_apply x h (ix2 r v) (ix2 0 v) (fun a => match a with
    | ⟨0, _⟩ => by show 0 = (if (1 : Nat) = 1 then 0 else r.val); rw [if_pos rfl]
    | ⟨1, _⟩ => by show v.val = (if (1024 : Nat) = 1 then 0 else v.val); rw [if_neg (by decide)])

end Layout

/-- `tanh` of a vector, at an index. -/
theorem tanh_at {s : Shape} {φ : FTy} (x : FVec Ideal s φ) (i : s.Idx) : tanh (F := Ideal) x i = Ideal.tanh (x i) := rfl

/-! ## The block's arrays, and the logits over them -/

variable (P0 : Vec Ideal S1x16x256 .f32) (P1 : Vec Ideal S1x64x256 .f32) (P2 : Vec Ideal S512x256 .f32) (P3 : Vec Ideal S512x256 .f32)
  (P4 : Vec Ideal S1x512 .f32) (P5 : Vec Ideal S1024x512 .f32) (P6 : Vec Ideal S1x1024 .f32)

/-- Encoder step `tt` of the block projected onto hidden unit `j`. -/
def blkEnc (tt : Fin 16) (j : Fin 512) : EReal := ∑ e : Fin 256, P0 (ix3 0 tt e) * P2 (ix2 j e)
/-- Decoder step `u` projected onto hidden unit `j`. -/
def blkDec (u : Fin 64) (j : Fin 512) : EReal := ∑ p : Fin 256, P1 (ix3 0 u p) * P3 (ix2 j p)
/-- Hidden unit `j` of the pair of steps `(tt, u)`. -/
def blkHidden (tt : Fin 16) (u : Fin 64) (j : Fin 512) : EReal :=
  Ideal.tanh (blkEnc P0 P2 tt j + blkDec P1 P3 u j + P4 (ix2 0 j))
/-- Logit `v` of the pair of steps `(tt, u)`. -/
def blkLogit (tt : Fin 16) (u : Fin 64) (v : Fin 1024) : EReal :=
  (∑ j : Fin 512, blkHidden P0 P1 P2 P3 P4 tt u j * P5 (ix2 v j)) + P6 (ix2 0 v)

/-! ## The body's values, named as it nests them -/

/-- The encoder product: the block's steps against the transposed encoder half. -/
def encMat : FVec Ideal S16x512 .f32 :=
  matmul dot_S16x256_S256x512_S16x512_1_0_0_1_n_n none
    (truncf (F := Ideal) .bf16 (shapeCast S16x256 P0 shapeCasts_S1x16x256_S16x256 : FVec Ideal S16x256 .f32) bitsLt_bf16_f32)
    (transpose S256x512 [1, 0]
      (truncf (F := Ideal) .bf16 (shapeCast S512x256 P2 shapeCasts_S512x256_S512x256 : FVec Ideal S512x256 .f32) bitsLt_bf16_f32)
      transposes_S512x256_p1_0_S256x512)
    (constant (F := Ideal) S16x512 .f32 0x00000000#32)

/-- The decoder product. -/
def decMat : FVec Ideal S64x512 .f32 :=
  matmul dot_S64x256_S256x512_S64x512_1_0_0_1_n_n none
    (truncf (F := Ideal) .bf16 (shapeCast S64x256 P1 shapeCasts_S1x64x256_S64x256 : FVec Ideal S64x256 .f32) bitsLt_bf16_f32)
    (transpose S256x512 [1, 0]
      (truncf (F := Ideal) .bf16 (shapeCast S512x256 P3 shapeCasts_S512x256_S512x256 : FVec Ideal S512x256 .f32) bitsLt_bf16_f32)
      transposes_S512x256_p1_0_S256x512)
    (constant (F := Ideal) S64x512 .f32 0x00000000#32)

/-- The hidden values over both step axes. -/
def hidMat : FVec Ideal S16x64x512 .f32 :=
  tanh (F := Ideal) (addf (F := Ideal)
    (addf (F := Ideal)
      (broadcastTo S16x64x512 (shapeCast S16x1x512 (encMat P0 P2) shapeCasts_S16x512_S16x1x512 : FVec Ideal S16x1x512 .f32) broadcasts_S16x1x512_S16x64x512)
      (broadcastTo S16x64x512 (shapeCast S1x64x512 (decMat P1 P3) shapeCasts_S64x512_S1x64x512 : FVec Ideal S1x64x512 .f32) broadcasts_S1x64x512_S16x64x512))
    (broadcastTo S16x64x512
      (shapeCast S1x1x512 (shapeCast S1x512 P4 shapeCasts_S1x512_S1x512 : FVec Ideal S1x512 .f32) shapeCasts_S1x512_S1x1x512 : FVec Ideal S1x1x512 .f32)
      broadcasts_S1x1x512_S16x64x512))

/-- The logits of the block's 1024 rows. -/
def logitMat : FVec Ideal S1024x1024 .f32 :=
  addf (F := Ideal)
    (matmul dot_S1024x512_S512x1024_S1024x1024_1_0_0_1_n_n none
      (truncf (F := Ideal) .bf16 (shapeCast S1024x512 (hidMat P0 P1 P2 P3 P4) shapeCasts_S16x64x512_S1024x512 : FVec Ideal S1024x512 .f32) bitsLt_bf16_f32)
      (transpose S512x1024 [1, 0] (truncf (F := Ideal) .bf16 (P5 : FVec Ideal S1024x512 .f32) bitsLt_bf16_f32) transposes_S1024x512_p1_0_S512x1024)
      (constant (F := Ideal) S1024x1024 .f32 0x00000000#32))
    (broadcastTo S1024x1024 (shapeCast S1x1024 P6 shapeCasts_S1x1024_S1x1024 : FVec Ideal S1x1024 .f32) broadcasts_S1x1024_S1024x1024)

/-- The printed payload is that nesting. -/
theorem pay2_eq : k0_pay2 (F := Ideal) P0 P1 P2 P3 P4 P5 P6 = logitMat P0 P1 P2 P3 P4 P5 P6 := rfl

theorem encMat_at (tt : Fin 16) (j : Fin 512) : encMat P0 P2 (ix2 tt j) = blkEnc P0 P2 tt j := by
  unfold encMat blkEnc
  rw [matmulEnc_at]
  refine Finset.sum_congr rfl fun e _ => ?_
  rw [truncf_apply, dropUnit16, transposeHalf, truncf_apply, shapeCast_self]

theorem decMat_at (u : Fin 64) (j : Fin 512) : decMat P1 P3 (ix2 u j) = blkDec P1 P3 u j := by
  unfold decMat blkDec
  rw [matmulDec_at]
  refine Finset.sum_congr rfl fun p _ => ?_
  rw [truncf_apply, dropUnit64, transposeHalf, truncf_apply, shapeCast_self]

theorem hidMat_at (tt : Fin 16) (u : Fin 64) (j : Fin 512) :
    hidMat P0 P1 P2 P3 P4 (ix3 tt u j) = blkHidden P0 P1 P2 P3 P4 tt u j := by
  unfold hidMat blkHidden
  rw [tanh_at, addf_apply, addf_apply, overDecoderSteps, addMiddle, encMat_at, overEncoderSteps, addLeading64, decMat_at,
    overBothSteps, addLeading1, shapeCast_self]

theorem logitMat_at (tt : Fin 16) (u : Fin 64) (v : Fin 1024) :
    logitMat P0 P1 P2 P3 P4 P5 P6 (ix2 (row tt u) v) = blkLogit P0 P1 P2 P3 P4 P5 P6 tt u v := by
  unfold logitMat blkLogit
  rw [addf_apply, matmulOut_at, downRows, shapeCast_self]
  congr 1
  refine Finset.sum_congr rfl fun j _ => ?_
  rw [truncf_apply, flattenSteps, hidMat_at, transposeOut, truncf_apply]

/-- The body's logits at row `tt * 64 + u` and column `v`. -/
theorem pay2_at (tt : Fin 16) (u : Fin 64) (v : Fin 1024) :
    k0_pay2 (F := Ideal) P0 P1 P2 P3 P4 P5 P6 (ix2 (row tt u) v) = blkLogit P0 P1 P2 P3 P4 P5 P6 tt u v :=
  (congrFun (pay2_eq P0 P1 P2 P3 P4 P5 P6) _).trans (logitMat_at P0 P1 P2 P3 P4 P5 P6 tt u v)

end Cert.Joint.OfKernel

end
-- ==== Proof.BlockSoftmax.lean ====
/-
  The rest of the kernel's body: the log-softmax of each of the block's 1024 rows of logits.

  Over the 1024 x 1024 array `L` of logits the body takes each row's maximum by a lane reduction from the pattern of minus
  infinity, which at the extended reals is the fold of `max` over the row's 1024 entries from that pattern's value; it lays
  the 1024 maxima out as a column, broadcasts the column across each row and subtracts; it sums the exponentials of each row
  by a lane reduction from zero, which is the plain sum over the row; and it subtracts the logarithm of that sum, again
  broadcast across the row. At row `r` and column `v` that is `logSoftmaxRow` of the row `r` of `L`, at `v`. The block's
  output at `(0, tt, u, v)` reads row `tt * 64 + u`, whose logits are `blkLogit`.
-/
import proofs.«169038_j26439818674455_1_alg».proof.Proof.ValueP
import proofs.«169038_j26439818674455_1_alg».proof.Proof.KernelBlock
import proofs.«169038_j26439818674455_1_alg».proof.Proof.JointSpec
import Idealize.ShloMosaic.Lib.Pipeline.Value
import Idealize.ShloMosaic.Lib.ValueIdx
import Idealize.ShloMosaic.PureOps.Ideal.Laws

noncomputable section

namespace Cert.Joint.OfKernel

open Cert.KernelIdeal Cert.KernelIdeal.Gen Cert.KernelIdeal.ValueP Idealize.ShloMosaic Idealize.ShloMosaic.ValueIdx Cert.Joint

/-- Column `k` of row `r`: the reduced index with the reduced axis's coordinate put back. -/
theorem lift_col (h : S1024x1024.Reduces [1] S1024) (r : Fin 1024) (k : Fin (S1024x1024.size 1)) :
    h.lift (ix1 r) k = ix2 r (⟨k.val, k.isLt⟩ : Fin 1024) := by
  funext c; apply Fin.ext
  fin_cases c <;> rfl

/-- A row's maximum by a lane reduction from a pattern: the fold of `max` over the row from the pattern's value. -/
theorem rowMax_at (L : FVec Ideal S1024x1024 .f32) (h : S1024x1024.Reduces [1] S1024) (hφ : FKind.Formats .f32)
    (hacc : (0xFF800000#32 : BitVec 32) = FKind.maximumf.neutral .f32 hφ) (r : Fin 1024) :
    multiReduction (F := Ideal) .maximumf [1] S1024 L 0xFF800000#32 h hφ hacc (ix1 r)
      = (Finset.univ : Finset (Fin 1024)).fold max (Ideal.ofBits .f32 0xFF800000#32) (fun w => L (ix2 r w)) := by
  refine (Ideal.multiReduction_maximumf_single L 0xFF800000#32 h hφ hacc (ix1 r)).trans ?_
  have hf : (L ∘ h.lift (ix1 r)) = fun w : Fin 1024 => L (ix2 r w) := funext fun k => congrArg L (lift_col h r k)
  rw [hf]
  rfl

/-- A row's sum by a lane reduction from zero: the sum over the row. -/
theorem rowSum_at (X : FVec Ideal S1024x1024 .f32) (h : S1024x1024.Reduces [1] S1024) (hφ : FKind.Formats .f32)
    (hacc : (0x00000000#32 : BitVec 32) = FKind.add.neutral .f32 hφ) (r : Fin 1024) :
    multiReduction (F := Ideal) .add [1] S1024 X 0x00000000#32 h hφ hacc (ix1 r) = ∑ w : Fin 1024, X (ix2 r w) := by
  refine (Ideal.multiReduction_add_single X 0x00000000#32 h hφ hacc (ix1 r)).trans ?_
  exact Finset.sum_congr rfl fun k _ => congrArg X (lift_col h r k)

/-- A vector of one value per row, laid out as a column and broadcast across the rows' entries, read at `(r, k)`. -/
theorem acrossRow {α : Type} (m : S1024.Idx → α) (h1 : S1024.ShapeCasts S1024x1) (h2 : S1024x1.Broadcasts S1024x1024) (r k : Fin 1024) :
    broadcastTo S1024x1024 (shapeCast S1024x1 m h1) h2 (ix2 r k) = m (ix1 r) :=
  (broadcastTo_apply (shapeCast S1024x1 m h1) h2 (ix2 r k) (ix2 r 0) (fun a => match a with
    | ⟨0, _⟩ => by show r.val = (if (1024 : Nat) = 1 then 0 else r.val); rw [if_neg (by decide)]
    | ⟨1, _⟩ => by show 0 = (if (1 : Nat) = 1 then 0 else k.val); rw [if_pos rfl])).trans
  (shapeCast_apply m h1 (ix2 r 0) (ix1 r) (by
    rw [Shape.rowMajor_val_one, Shape.rowMajor_val_two]
    show r.val = r.val * 1 + 0
    omega))

/-- The body's last steps over any array of logits `L`, at row `r` and column `v`: the log-softmax of row `r`. -/
theorem softmax_at (L : FVec Ideal S1024x1024 .f32) (h : S1024x1024.Reduces [1] S1024) (hφ : FKind.Formats .f32)
    (hmaxAcc : (0xFF800000#32 : BitVec 32) = FKind.maximumf.neutral .f32 hφ) (haddAcc : (0x00000000#32 : BitVec 32) = FKind.add.neutral .f32 hφ)
    (h1 : S1024.ShapeCasts S1024x1) (h2 : S1024x1.Broadcasts S1024x1024) (r v : Fin 1024) :
    (L (ix2 r v) - multiReduction (F := Ideal) .maximumf [1] S1024 L 0xFF800000#32 h hφ hmaxAcc (ix1 r))
      - Ideal.log (multiReduction (F := Ideal) .add [1] S1024
          (exp (F := Ideal) (subf (F := Ideal) L
            (broadcastTo S1024x1024 (shapeCast S1024x1 (multiReduction (F := Ideal) .maximumf [1] S1024 L 0xFF800000#32 h hφ hmaxAcc) h1) h2)))
          0x00000000#32 h hφ haddAcc (ix1 r))
      = logSoftmaxRow (fun w => L (ix2 r w)) v := by
  rw [rowSum_at, rowMax_at]
  unfold logSoftmaxRow
  refine congrArg (fun s => (L (ix2 r v) - (Finset.univ : Finset (Fin 1024)).fold max (Ideal.ofBits .f32 0xFF800000#32) (fun w => L (ix2 r w))) - Ideal.log s)
    (Finset.sum_congr rfl fun w _ => ?_)
  show Ideal.exp (L (ix2 r w) - broadcastTo S1024x1024 (shapeCast S1024x1 _ h1) h2 (ix2 r w)) = _
  rw [acrossRow, rowMax_at]

variable (P0 : Vec Ideal S1x16x256 .f32) (P1 : Vec Ideal S1x64x256 .f32) (P2 : Vec Ideal S512x256 .f32) (P3 : Vec Ideal S512x256 .f32)
  (P4 : Vec Ideal S1x512 .f32) (P5 : Vec Ideal S1024x512 .f32) (P6 : Vec Ideal S1x1024 .f32)

/-- What a point leaves in its output block, at `(0, tt, u, v)`: the log-softmax of the logits of the pair of steps `(tt, u)`, at `v`. -/
theorem block_at (tt : Fin 16) (u : Fin 64) (v : Fin 1024) :
    E7 (F := Ideal) P0 P1 P2 P3 P4 P5 P6 (ix4 0 tt u v) = logSoftmaxRow (blkLogit P0 P1 P2 P3 P4 P5 P6 tt u) v := by
  have h0 : ix7_0 (ix4 (0 : Fin 1) tt u v) = ix2 (row tt u) v :=
    funext fun a => by match a with | ⟨0, _⟩ => rfl | ⟨1, _⟩ => rfl
  have h1 : ix7_1 (ix4 (0 : Fin 1) tt u v) = ix1 (row tt u) :=
    funext fun a => by match a with | ⟨0, _⟩ => rfl
  have h2 : ix7_2 (ix4 (0 : Fin 1) tt u v) = ix1 (row tt u) :=
    funext fun a => by match a with | ⟨0, _⟩ => rfl
  have hrow : (fun w : Fin 1024 => k0_pay2 (F := Ideal) P0 P1 P2 P3 P4 P5 P6 (ix2 (row tt u) w)) = blkLogit P0 P1 P2 P3 P4 P5 P6 tt u :=
    funext fun w => pay2_at P0 P1 P2 P3 P4 P5 P6 tt u w
  show (k0_pay2 (F := Ideal) P0 P1 P2 P3 P4 P5 P6 (ix7_0 (ix4 (0 : Fin 1) tt u v)) - _) - Ideal.log _ = _
  rw [h0, h1, h2]
  refine (softmax_at (k0_pay2 (F := Ideal) P0 P1 P2 P3 P4 P5 P6) _ _ _ _ _ _ (row tt u) v).trans ?_
  rw [hrow]

end Cert.Joint.OfKernel

end
-- ==== Proof.BlockIsSpec.lean ====
/-
  A block's logits are the reference's.

  The block formula `blkLogit` and the whole-array formula `logit` are the same expression, one over a block's seven
  arrays and one over the six arguments. So they agree as soon as each block array reads the argument where the formula
  looks: the encoder block's step `tt` is step `T` of batch entry `b`, the decoder block is that entry's, the two weight
  blocks are the two column halves of the first weight matrix, the bias rows are the biases, and the second weight block is
  the second weight matrix.
-/
import proofs.«169038_j26439818674455_1_alg».proof.Proof.KernelBlock
import proofs.«169038_j26439818674455_1_alg».proof.Proof.JointSpec

noncomputable section

namespace Cert.Joint.OfKernel

open Cert.KernelIdeal Cert.KernelIdeal.Gen Idealize.ShloMosaic Idealize.ShloMosaic.ValueIdx Cert.Joint

theorem blkLogit_eq_logit
    (P0 : Vec Ideal S1x16x256 .f32) (P1 : Vec Ideal S1x64x256 .f32) (P2 : Vec Ideal S512x256 .f32) (P3 : Vec Ideal S512x256 .f32)
    (P4 : Vec Ideal S1x512 .f32) (P5 : Vec Ideal S1024x512 .f32) (P6 : Vec Ideal S1x1024 .f32)
    (enc : (⟨3, ![8, 256, 256]⟩ : Shape).Idx → EReal) (dec : (⟨3, ![8, 64, 256]⟩ : Shape).Idx → EReal)
    (W1 : (⟨2, ![512, 512]⟩ : Shape).Idx → EReal) (b1 : (⟨1, ![512]⟩ : Shape).Idx → EReal)
    (W2 : (⟨2, ![1024, 512]⟩ : Shape).Idx → EReal) (b2 : (⟨1, ![1024]⟩ : Shape).Idx → EReal)
    (b : Fin 8) (T : Fin 256) (tt : Fin 16) (u : Fin 64)
    (h0 : ∀ e : Fin 256, P0 (ix3 0 tt e) = enc (ix3 b T e))
    (h1 : ∀ p : Fin 256, P1 (ix3 0 u p) = dec (ix3 b u p))
    (h2 : ∀ (j : Fin 512) (e : Fin 256), P2 (ix2 j e) = W1 (ix2 j (encCol e)))
    (h3 : ∀ (j : Fin 512) (p : Fin 256), P3 (ix2 j p) = W1 (ix2 j (decCol p)))
    (h4 : ∀ j : Fin 512, P4 (ix2 0 j) = b1 (ix1 j))
    (h5 : ∀ (v : Fin 1024) (j : Fin 512), P5 (ix2 v j) = W2 (ix2 v j))
    (h6 : ∀ v : Fin 1024, P6 (ix2 0 v) = b2 (ix1 v)) :
    blkLogit P0 P1 P2 P3 P4 P5 P6 tt u = logit enc dec W1 b1 W2 b2 b T u := by
  funext v
  unfold blkLogit logit blkHidden hidden blkEnc encProj blkDec decProj
  simp only [h0, h1, h2, h3, h4, h5, h6]

end Cert.Joint.OfKernel

end
-- ==== Proof.BlocksToArray.lean ====
/-
  From the blocks to the array: the kernel's result array is `logProbs` of its six arguments.

  The grid has 8 x 16 points. Point `(b, tb)` stages sixteen encoder steps `tb * 16 + tt` of batch entry `b`, all of that
  entry's decoder steps, and, whole, the two column halves of the first weight matrix and the two biases as rows, which the
  program slices and reshapes before the region, and the second weight matrix; it writes back the block `(b, tb, 0, 0)` of the
  result, of extents 1 x 16 x 64 x 1024. What it writes at `(0, tt, u, v)` is the log-softmax of the block's logits of `(tt, u)`,
  and those are the reference's logits of `(b, tb * 16 + tt, u)`, because each block array reads its argument where the
  formula looks. So the block is the block of `logProbs`. The 128 blocks tile the result array: index `(i0, i1, i2, i3)` lies in
  the block of the point `(i0, i1 / 16)`. Hence the array after the run.
-/
import proofs.«169038_j26439818674455_1_alg».proof.Proof.ValueP
import proofs.«169038_j26439818674455_1_alg».proof.Proof.BlockSoftmax
import proofs.«169038_j26439818674455_1_alg».proof.Proof.BlockIsSpec
import proofs.«169038_j26439818674455_1_alg».proof.Proof.JointSpec
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem
open Idealize.ShloMosaic.Pipeline (Dat)

namespace Cert.Joint.OfKernel

open Cert.KernelIdeal Cert.KernelIdeal.Gen Cert.KernelIdeal.ValueP Idealize.ShloMosaic.ValueIdx Cert.Joint

variable (m : (ℓ : Loc nD τ sig) → Buf (Elt Ideal) ℓ) (ρ : Dev nD → PrngReg)

/-! ## The six arguments, and the result -/

abbrev encArr (c : Dev nD) : S8x256x256.Idx → EReal := m ((c : Thread nD τ).loc main_arg0)
abbrev decArr (c : Dev nD) : S8x64x256.Idx → EReal := m ((c : Thread nD τ).loc main_arg1)
abbrev w1Arr (c : Dev nD) : S512x512.Idx → EReal := m ((c : Thread nD τ).loc main_arg2)
abbrev b1Arr (c : Dev nD) : S512.Idx → EReal := m ((c : Thread nD τ).loc main_arg3)
abbrev w2Arr (c : Dev nD) : S1024x512.Idx → EReal := m ((c : Thread nD τ).loc main_arg4)
abbrev b2Arr (c : Dev nD) : S1024.Idx → EReal := m ((c : Thread nD τ).loc main_arg5)

/-- The log-probabilities of the six arguments as launched. -/
abbrev result (c : Dev nD) : S8x256x64x1024.Idx → EReal :=
  logProbs (encArr m c) (decArr m c) (w1Arr m c) (b1Arr m c) (w2Arr m c) (b2Arr m c)

/-! ## The index maps over the grid -/

/-- Each input window's block index against the output's, decided over the 128 points: the encoder window moves with the
    output on its first two axes, the decoder window on the first, and the rest stay at the origin. -/
theorem idx_facts : ∀ t : Fin cfg0.N,
    win0_0.index t (0 : Fin 3) = win0_7.index t (0 : Fin 4) ∧ win0_0.index t (1 : Fin 3) = win0_7.index t (1 : Fin 4) ∧ win0_0.index t (2 : Fin 3) = 0
    ∧ win0_1.index t (0 : Fin 3) = win0_7.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (2 : Fin 4) = 0 ∧ win0_7.index t (3 : Fin 4) = 0 :=
  (by decide +kernel : ∀ t : Fin grid0.N, _)

/-- The output's block index stays inside the 8 x 16 blocks. -/
theorem out_idx_lt : ∀ t : Fin cfg0.N, win0_7.index t (0 : Fin 4) < 8 ∧ win0_7.index t (1 : Fin 4) < 16 :=
  (by decide +kernel : ∀ t : Fin grid0.N, _)

/-- Every one of the 8 x 16 blocks is some point's. -/
theorem idx_onto : ∀ (q0 : Fin 8) (q1 : Fin 16), ∃ t : Fin cfg0.N, win0_7.index t = ![q0.val, q1.val, 0, 0] :=
  (by decide +kernel : ∀ (q0 : Fin 8) (q1 : Fin 16), ∃ t : Fin grid0.N, win0_7.index t = ![q0.val, q1.val, 0, 0])

/-- The batch entry point `t` works on. -/
def ptB (t : Fin cfg0.N) : Fin 8 := ⟨win0_7.index t (0 : Fin 4), (out_idx_lt t).1⟩
/-- The encoder step that is step `tt` of point `t`'s sixteen. -/
def ptT (t : Fin cfg0.N) (tt : Fin 16) : Fin 256 :=
  ⟨win0_7.index t (1 : Fin 4) * 16 + tt.val, by have := (out_idx_lt t).2; have := tt.isLt; omega⟩

/-! ## The arrays the program writes before the region -/

theorem encHalf_at (c : Dev nD) (j : Fin 512) (e : Fin 256) :
    (V m c main_v0 : S512x256.Idx → EReal) (ix2 j e) = w1Arr m c (ix2 j (encCol e)) := by
  have hV : (V m c main_v0 : S512x256.Idx → EReal)
      = extractStridedSlice S512x256 ![0, 0] (w1Arr m c) slices_S512x512_S512x256_0_0 := by
    dsimp only [V, hostOps0]; after_results
  rw [hV]
  exact extractStridedSlice_apply ![0, 0] (w1Arr m c) slices_S512x512_S512x256_0_0 (ix2 j e) (ix2 j (encCol e)) (fun a => match a with
    | ⟨0, _⟩ => by show j.val = 0 + j.val; omega
    | ⟨1, _⟩ => by show e.val = 0 + e.val; omega)

theorem decHalf_at (c : Dev nD) (j : Fin 512) (p : Fin 256) :
    (V m c main_v1 : S512x256.Idx → EReal) (ix2 j p) = w1Arr m c (ix2 j (decCol p)) := by
  have hV : (V m c main_v1 : S512x256.Idx → EReal)
      = extractStridedSlice S512x256 ![0, 256] (w1Arr m c) slices_S512x512_S512x256_0_256 := by
    dsimp only [V, hostOps0]; after_results
  rw [hV]
  exact extractStridedSlice_apply ![0, 256] (w1Arr m c) slices_S512x512_S512x256_0_256 (ix2 j p) (ix2 j (decCol p)) (fun a => match a with
    | ⟨0, _⟩ => by show j.val = 0 + j.val; omega
    | ⟨1, _⟩ => by show 256 + p.val = 256 + p.val; omega)

theorem b1Row_at (c : Dev nD) (j : Fin 512) :
    (V m c main_v2 : S1x512.Idx → EReal) (ix2 0 j) = b1Arr m c (ix1 j) := by
  have hV : (V m c main_v2 : S1x512.Idx → EReal) = shapeCast S1x512 (b1Arr m c) shapeCasts_S512_S1x512 := by
    dsimp only [V, hostOps0]; after_results; rfl
  rw [hV]
  exact shapeCast_apply (b1Arr m c) shapeCasts_S512_S1x512 (ix2 0 j) (ix1 j) (by
    rw [Shape.rowMajor_val_one, Shape.rowMajor_val_two]
    show j.val = 0 * 512 + j.val
    omega)

theorem b2Row_at (c : Dev nD) (v : Fin 1024) :
    (V m c main_v3 : S1x1024.Idx → EReal) (ix2 0 v) = b2Arr m c (ix1 v) := by
  have hV : (V m c main_v3 : S1x1024.Idx → EReal) = shapeCast S1x1024 (b2Arr m c) shapeCasts_S1024_S1x1024 := by
    dsimp only [V, hostOps0]; after_results; rfl
  rw [hV]
  exact shapeCast_apply (b2Arr m c) shapeCasts_S1024_S1x1024 (ix2 0 v) (ix1 v) (by
    rw [Shape.rowMajor_val_one, Shape.rowMajor_val_two]
    show v.val = 0 * 1024 + v.val
    omega)

/-! ## What each input block of point `t` reads -/

theorem encBlock_at (c : Dev nD) (t : Fin cfg0.N) (tt : Fin 16) (e : Fin 256) :
    (iblk m c 0 t : Vec Ideal S1x16x256 .f32) (ix3 0 tt e) = encArr m c (ix3 (ptB t) (ptT t tt) e) := by
  obtain ⟨h0, h1, h2, -⟩ := idx_facts t
  unfold iblk
  rw [View.read_apply]
  show V m c main_arg0 _ = encArr m c _
  rw [V_main_arg0]
  refine congrArg (encArr m c) (funext fun a => Fin.ext ?_)
  match a with
  | ⟨0, _⟩ => show win0_0.index t (0 : Fin 3) * 1 + 1 * 0 = win0_7.index t (0 : Fin 4); omega
  | ⟨1, _⟩ => show win0_0.index t (1 : Fin 3) * 16 + 1 * tt.val = win0_7.index t (1 : Fin 4) * 16 + tt.val; omega
  | ⟨2, _⟩ => show win0_0.index t (2 : Fin 3) * 256 + 1 * e.val = e.val; omega

theorem decBlock_at (c : Dev nD) (t : Fin cfg0.N) (u : Fin 64) (p : Fin 256) :
    (iblk m c 1 t : Vec Ideal S1x64x256 .f32) (ix3 0 u p) = decArr m c (ix3 (ptB t) u p) := by
  obtain ⟨-, -, -, h0, h1, h2, -⟩ := idx_facts t
  unfold iblk
  rw [View.read_apply]
  show V m c main_arg1 _ = decArr m c _
  rw [V_main_arg1]
  refine congrArg (decArr m c) (funext fun a => Fin.ext ?_)
  match a with
  | ⟨0, _⟩ => show win0_1.index t (0 : Fin 3) * 1 + 1 * 0 = win0_7.index t (0 : Fin 4); omega
  | ⟨1, _⟩ => show win0_1.index t (1 : Fin 3) * 64 + 1 * u.val = u.val; omega
  | ⟨2, _⟩ => show win0_1.index t (2 : Fin 3) * 256 + 1 * p.val = p.val; omega

theorem encHalfBlock_at (c : Dev nD) (t : Fin cfg0.N) (j : Fin 512) (e : Fin 256) :
    (iblk m c 2 t : Vec Ideal S512x256 .f32) (ix2 j e) = w1Arr m c (ix2 j (encCol e)) := by
  obtain ⟨-, -, -, -, -, -, h0, h1, -⟩ := idx_facts t
  unfold iblk
  rw [View.read_apply]
  show (V m c main_v0 : S512x256.Idx → EReal) _ = _
  refine Eq.trans (congrArg (V m c main_v0 : S512x256.Idx → EReal) (funext fun a => Fin.ext ?_)) (encHalf_at m c j e)
  match a with
  | ⟨0, _⟩ => show win0_2.index t (0 : Fin 2) * 512 + 1 * j.val = j.val; omega
  | ⟨1, _⟩ => show win0_2.index t (1 : Fin 2) * 256 + 1 * e.val = e.val; omega

theorem decHalfBlock_at (c : Dev nD) (t : Fin cfg0.N) (j : Fin 512) (p : Fin 256) :
    (iblk m c 3 t : Vec Ideal S512x256 .f32) (ix2 j p) = w1Arr m c (ix2 j (decCol p)) := by
  obtain ⟨-, -, -, -, -, -, -, -, h0, h1, -⟩ := idx_facts t
  unfold iblk
  rw [View.read_apply]
  show (V m c main_v1 : S512x256.Idx → EReal) _ = _
  refine Eq.trans (congrArg (V m c main_v1 : S512x256.Idx → EReal) (funext fun a => Fin.ext ?_)) (decHalf_at m c j p)
  match a with
  | ⟨0, _⟩ => show win0_3.index t (0 : Fin 2) * 512 + 1 * j.val = j.val; omega
  | ⟨1, _⟩ => show win0_3.index t (1 : Fin 2) * 256 + 1 * p.val = p.val; omega

theorem b1Block_at (c : Dev nD) (t : Fin cfg0.N) (j : Fin 512) :
    (iblk m c 4 t : Vec Ideal S1x512 .f32) (ix2 0 j) = b1Arr m c (ix1 j) := by
  obtain ⟨-, -, -, -, -, -, -, -, -, -, h0, h1, -⟩ := idx_facts t
  unfold iblk
  rw [View.read_apply]
  show (V m c main_v2 : S1x512.Idx → EReal) _ = _
  refine Eq.trans (congrArg (V m c main_v2 : S1x512.Idx → EReal) (funext fun a => Fin.ext ?_)) (b1Row_at m c j)
  match a with
  | ⟨0, _⟩ => show win0_4.index t (0 : Fin 2) * 1 + 1 * 0 = 0; omega
  | ⟨1, _⟩ => show win0_4.index t (1 : Fin 2) * 512 + 1 * j.val = j.val; omega

theorem w2Block_at (c : Dev nD) (t : Fin cfg0.N) (v : Fin 1024) (j : Fin 512) :
    (iblk m c 5 t : Vec Ideal S1024x512 .f32) (ix2 v j) = w2Arr m c (ix2 v j) := by
  obtain ⟨-, -, -, -, -, -, -, -, -, -, -, -, h0, h1, -⟩ := idx_facts t
  unfold iblk
  rw [View.read_apply]
  show V m c main_arg4 _ = w2Arr m c _
  rw [V_main_arg4]
  refine congrArg (w2Arr m c) (funext fun a => Fin.ext ?_)
  match a with
  | ⟨0, _⟩ => show win0_5.index t (0 : Fin 2) * 1024 + 1 * v.val = v.val; omega
  | ⟨1, _⟩ => show win0_5.index t (1 : Fin 2) * 512 + 1 * j.val = j.val; omega

theorem b2Block_at (c : Dev nD) (t : Fin cfg0.N) (v : Fin 1024) :
    (iblk m c 6 t : Vec Ideal S1x1024 .f32) (ix2 0 v) = b2Arr m c (ix1 v) := by
  obtain ⟨-, -, -, -, -, -, -, -, -, -, -, -, -, -, h0, h1, -⟩ := idx_facts t
  unfold iblk
  rw [View.read_apply]
  show (V m c main_v3 : S1x1024.Idx → EReal) _ = _
  refine Eq.trans (congrArg (V m c main_v3 : S1x1024.Idx → EReal) (funext fun a => Fin.ext ?_)) (b2Row_at m c v)
  match a with
  | ⟨0, _⟩ => show win0_6.index t (0 : Fin 2) * 1 + 1 * 0 = 0; omega
  | ⟨1, _⟩ => show win0_6.index t (1 : Fin 2) * 1024 + 1 * v.val = v.val; omega

/-! ## What point `t` writes back -/

theorem hz2 : (![0, 0] : Fin 2 → Nat) = fun _ => 0 := funext fun a => by fin_cases a <;> rfl
theorem hz3 : (![0, 0, 0] : Fin 3 → Nat) = fun _ => 0 := funext fun a => by fin_cases a <;> rfl

/-- Index `(0, tt, u, v)` of point `t`'s output block is index `(b, tb * 16 + tt, u, v)` of the result array. -/
theorem outBlock_emb (t : Fin cfg0.N) (tt : Fin 16) (u : Fin 64) (v : Fin 1024) :
    ((cfg0.win 7).blk t).view.emb (ix4 (0 : Fin 1) tt u v : S1x16x64x1024.Idx) = (ix4 (ptB t) (ptT t tt) u v : S8x256x64x1024.Idx) := by
  obtain ⟨-, -, -, -, -, -, -, -, -, -, -, -, -, -, -, -, h2, h3⟩ := idx_facts t
  funext a; apply Fin.ext
  match a with
  | ⟨0, _⟩ => show win0_7.index t (0 : Fin 4) * 1 + 1 * 0 = win0_7.index t (0 : Fin 4); omega
  | ⟨1, _⟩ => show win0_7.index t (1 : Fin 4) * 16 + 1 * tt.val = win0_7.index t (1 : Fin 4) * 16 + tt.val; omega
  | ⟨2, _⟩ => show win0_7.index t (2 : Fin 4) * 64 + 1 * u.val = u.val; omega
  | ⟨3, _⟩ => show win0_7.index t (3 : Fin 4) * 1024 + 1 * v.val = v.val; omega

/-- WHAT POINT `t` WRITES BACK is block `t` of `result`. -/
theorem flushed_eq (c : Dev nD) (t : Fin cfg0.N) :
    (dats m 0 c).flushed 7 t = ((cfg0.win 7).blk t).view.read (Elt Ideal) (result m c) := by
  rw [flushed7]
  unfold out0_7
  simp only [View.ld_unit_zero (S := S1x16x256) hz3, View.ld_unit_zero (S := S1x64x256) hz3, View.ld_unit_zero (S := S512x256) hz2,
    View.ld_unit_zero (S := S1x512) hz2, View.ld_unit_zero (S := S1024x512) hz2, View.ld_unit_zero (S := S1x1024) hz2]
  funext y
  obtain ⟨y0, tt, u, v, rfl⟩ : ∃ (y0 : Fin 1) (tt : Fin 16) (u : Fin 64) (v : Fin 1024), y = ix4 y0 tt u v :=
    ⟨y 0, y 1, y 2, y 3, eq_ix4 y⟩
  obtain rfl : y0 = 0 := Subsingleton.elim _ _
  refine (canon7_eq _ _ _ _ _ _ _ (ix4 (0 : Fin 1) tt u v)).trans ?_
  rw [block_at]
  show _ = result m c (((cfg0.win 7).blk t).view.emb (ix4 (0 : Fin 1) tt u v : S1x16x64x1024.Idx))
  rw [outBlock_emb]
  show _ = logSoftmaxRow (logit (encArr m c) (decArr m c) (w1Arr m c) (b1Arr m c) (w2Arr m c) (b2Arr m c) (ptB t) (ptT t tt) u) v
  rw [blkLogit_eq_logit _ _ _ _ _ _ _ (encArr m c) (decArr m c) (w1Arr m c) (b1Arr m c) (w2Arr m c) (b2Arr m c) (ptB t) (ptT t tt) tt u
    (encBlock_at m c t tt) (decBlock_at m c t u) (encHalfBlock_at m c t) (decHalfBlock_at m c t) (b1Block_at m c t) (w2Block_at m c t) (b2Block_at m c t)]

/-! ## The blocks tile the result array -/

/-- An index of the array is in point `t`'s block iff each coordinate is in the block's range on its axis. -/
theorem mem_blk (t : Fin cfg0.N) (i : S8x256x64x1024.Idx) :
    i ∈ ((cfg0.win 7).blk t).view.set ↔ ∀ a : Fin 4, win0_7.index t a * S1x16x64x1024.size a ≤ (i a).val ∧ (i a).val < win0_7.index t a * S1x16x64x1024.size a + S1x16x64x1024.size a := by
  show i ∈ ((View.whole main_v4).slice (win0_7.rect t)).set ↔ _
  rw [View.set_slice_whole, Rect.mem_set_unit]
  exact Iff.rfl

/-- Every index is in the block of the point `(i0, i1 / 16)`. -/
theorem cover (i : S8x256x64x1024.Idx) : ∃ t : Fin cfg0.N, (cfg0.win 7).flush t = true ∧ i ∈ ((cfg0.win 7).blk t).view.set := by
  have hi0 : (i 0).val < 8 := (i 0).isLt
  have hi1 : (i 1).val < 256 := (i 1).isLt
  have hi2 : (i 2).val < 64 := (i 2).isLt
  have hi3 : (i 3).val < 1024 := (i 3).isLt
  obtain ⟨t, ht⟩ := idx_onto ⟨(i 0).val, hi0⟩ ⟨(i 1).val / 16, by omega⟩
  have q0 : win0_7.index t (0 : Fin 4) = (i 0).val := congrFun ht 0
  have q1 : win0_7.index t (1 : Fin 4) = (i 1).val / 16 := congrFun ht 1
  have q2 : win0_7.index t (2 : Fin 4) = 0 := congrFun ht 2
  have q3 : win0_7.index t (3 : Fin 4) = 0 := congrFun ht 3
  refine ⟨t, flush0_7 t, ?_⟩
  rw [mem_blk]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 16 ≤ (i 1).val ∧ (i 1).val < win0_7.index t (1 : Fin 4) * 16 + 16; omega
  | ⟨2, _⟩ => show win0_7.index t (2 : Fin 4) * 64 ≤ (i 2).val ∧ (i 2).val < win0_7.index t (2 : Fin 4) * 64 + 64; omega
  | ⟨3, _⟩ => show win0_7.index t (3 : Fin 4) * 1024 ≤ (i 3).val ∧ (i 3).val < win0_7.index t (3 : Fin 4) * 1024 + 1024; omega

/-- THE ARRAY after the run is `result`. -/
theorem final (c : Dev nD) : (dats m 0 c).arrAt 7 cfg0.N = result m c :=
  (dats m 0 c).arrAt_eq_of_cover 7 (result m c) (fun t _ => flushed_eq m c t) cover

/-! ## The run, read -/

/-- The kernel's run: the result array at `logProbs` of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.Joint.OfKernel

end
-- ==== Proof.lean ====
/-
  The proof of `Cert.Claim`: a transducer joint network's log-probabilities, computed by one fused kernel over a grid of
  8 x 16 blocks, against the same network written with einsums and `log_softmax`.

  Both programs compute `Cert.Joint.logProbs` of their six arguments (Proof/JointSpec.lean): a batch entry, an encoder step
  and a decoder step give 512 hidden values, `tanh` of the two steps' projections through the two column halves of the first
  weight matrix plus the first bias; the hidden values against the second weight matrix plus the second bias give 1024 logits;
  the result is the log-softmax of that row. The reference is read operation by operation (Proof/ReferenceIsSpec.lean). The
  kernel's body is read at an entry of a block: its three matrix products as sums over the contraction (Proof/KernelMatmuls.lean),
  its transposes, casts and broadcasts as changes of index (Proof/KernelBlock.lean), its two lane reductions as the row's
  maximum and the row's sum (Proof/BlockSoftmax.lean); a block's arrays read the arguments where the formula looks
  (Proof/BlockIsSpec.lean), and the 128 blocks tile the result array (Proof/BlocksToArray.lean). At the extended reals a
  change of float format is the identity, a matrix product into a zero accumulator is the plain sum, and the reference's second
  `maximum` with minus infinity changes nothing; no step needs the inputs to be finite. The three frames are the kernels'
  generated frames and the reference's run with its result dropped; the idealization rewrote no operation.
-/
import proofs.«169038_j26439818674455_1_alg».proof.Defs
import proofs.«169038_j26439818674455_1_alg».proof.Proof.Gen.Kernel
import proofs.«169038_j26439818674455_1_alg».proof.Proof.Gen.Kernel.Skeleton
import proofs.«169038_j26439818674455_1_alg».proof.Proof.Gen.Kernel.Launch
import proofs.«169038_j26439818674455_1_alg».proof.Proof.Gen.Kernel.Points
import proofs.«169038_j26439818674455_1_alg».proof.Proof.Gen.Kernel.Frame
import proofs.«169038_j26439818674455_1_alg».proof.Proof.Gen.KernelIdeal
import proofs.«169038_j26439818674455_1_alg».proof.Proof.Gen.KernelIdeal.Skeleton
import proofs.«169038_j26439818674455_1_alg».proof.Proof.Gen.KernelIdeal.Launch
import proofs.«169038_j26439818674455_1_alg».proof.Proof.Gen.KernelIdeal.Points
import proofs.«169038_j26439818674455_1_alg».proof.Proof.Gen.KernelIdeal.Frame
import proofs.«169038_j26439818674455_1_alg».proof.Proof.Gen.ReferenceIdeal
import proofs.«169038_j26439818674455_1_alg».proof.Proof.Gen.Pre_finite_inputs
import proofs.«169038_j26439818674455_1_alg».proof.Proof.ValueP
import proofs.«169038_j26439818674455_1_alg».proof.Proof.RunP
import proofs.«169038_j26439818674455_1_alg».proof.Proof.ReadP
import proofs.«169038_j26439818674455_1_alg».proof.Proof.ReferenceIsSpec
import proofs.«169038_j26439818674455_1_alg».proof.Proof.BlocksToArray
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Run from memories that agree on the six arguments, the kernel's result array and the reference's both end at
    `logProbs` of those arguments. -/
theorem algebraic : Cert.algebraic_KernelIdeal_ReferenceIdeal := by
  intro m ρ m' ρ' _ hagree
  refine ⟨fun c => Cert.Joint.OfKernel.result m c, Cert.Joint.OfKernel.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v17_eq, Cert.Joint.OfReference.reference_eq]
  obtain ⟨h0, h1, h2, h3, h4, h5⟩ := hagree c
  rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
